-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x8 : Shape := ⟨2, ![2097152, 8]⟩
abbrev S16x3 : Shape := ⟨2, ![16, 3]⟩
abbrev S16 : Shape := ⟨1, ![16]⟩
abbrev S16x16 : Shape := ⟨2, ![16, 16]⟩
abbrev S8x2 : Shape := ⟨2, ![8, 2]⟩
abbrev S8 : Shape := ⟨1, ![8]⟩
abbrev S8x8 : Shape := ⟨2, ![8, 8]⟩
abbrev S8x3 : Shape := ⟨2, ![8, 3]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S2097152x8 : S_.BroadcastsInDim S2097152x8 (![] : Fin 0 → Fin S2097152x8.rank)
  reducesTo_S2097152x8_S_d0_1 : S2097152x8.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S8x2 : S_.BroadcastsInDim S8x2 (![] : Fin 0 → Fin S8x2.rank)
  reducesTo_S8x2_S_d0_1 : S8x2.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x3 : S_.BroadcastsInDim S8x3 (![] : Fin 0 → Fin S8x3.rank)
  reducesTo_S8x3_S_d0_1 : S8x3.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg18 : FVec F S32 .f32) (main_arg19 : FVec F S64x32 .f32) (main_arg20 : FVec F S64 .f32) (main_v83 : IVec S_ 1) (main_v84 : FVec F S32x64 .f32) (main_cst_32 : FVec F S_ .f32) : IVec S_ 1 :=
  let main_v85 : FVec F S32x64 .f32 := broadcastInDim S32x64 ![] bcast_S_S32x64 main_cst_32
  let main_v86 : IVec S32x64 1 := cmpf .olt main_v84 main_v85
  let main_c_33 : IVec S_ 1 := constantI S_ 1 1#1
  let main_v87 : IVec S_ 1 := (fun x v => Host.reduce IntOp.andi x v reducesTo_S32x64_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S64x32 .f32 := Host.absf main_arg19
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S32x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x8 .f32 := Host.absf main_arg11
  let main_cst_20 : FVec F S_ .f32 := constant S_ .f32 0x7F800000#32
  let main_v55 : FVec F S8x8 .f32 := broadcastInDim S8x8 ![] bcast_S_S8x8 main_cst_20
  let main_v56 : IVec S8x8 1 := cmpf .olt main_v54 main_v55
  let main_c_21 : IVec S_ 1 := constantI S_ 1 1#1
  let main_v57 : IVec S_ 1 := (fun x v => Host.reduce IntOp.andi x v reducesTo_S8x8_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S8x8 .f32) (main_arg8 : FVec F S8 .f32) (main_arg9 : FVec F S8x3 .f32) (main_arg10 : FVec F S8 .f32) (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x3 .f32 := Host.absf main_arg9
  let main_cst_16 : FVec F S_ .f32 := constant S_ .f32 0x7F800000#32
  let main_v45 : FVec F S8x3 .f32 := broadcastInDim S8x3 ![] bcast_S_S8x3 main_cst_16
  let main_v46 : IVec S8x3 1 := cmpf .olt main_v44 main_v45
  let main_c_17 : IVec S_ 1 := constantI S_ 1 1#1
  let main_v47 : IVec S_ 1 := (fun x v => Host.reduce IntOp.andi x v reducesTo_S8x3_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S16 .f32) (main_arg5 : FVec F S8x2 .f32) (main_arg6 : FVec F S8 .f32) (main_arg7 : FVec F S8x8 .f32) (main_arg8 : FVec F S8 .f32) (main_arg9 : FVec F S8x3 .f32) (main_arg10 : FVec F S8 .f32) (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S8x2 .f32 := Host.absf main_arg5
  let main_cst_8 : FVec F S_ .f32 := constant S_ .f32 0x7F800000#32
  let main_v25 : FVec F S8x2 .f32 := broadcastInDim S8x2 ![] bcast_S_S8x2 main_cst_8
  let main_v26 : IVec S8x2 1 := cmpf .olt main_v24 main_v25
  let main_c_9 : IVec S_ 1 := constantI S_ 1 1#1
  let main_v27 : IVec S_ 1 := (fun x v => Host.reduce IntOp.andi x v reducesTo_S8x2_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S2097152x8 .f32) (main_arg1 : FVec F S16x3 .f32) (main_arg2 : FVec F S16 .f32) (main_arg3 : FVec F S16x16 .f32) (main_arg4 : FVec F S16 .f32) (main_arg5 : FVec F S8x2 .f32) (main_arg6 : FVec F S8 .f32) (main_arg7 : FVec F S8x8 .f32) (main_arg8 : FVec F S8 .f32) (main_arg9 : FVec F S8x3 .f32) (main_arg10 : FVec F S8 .f32) (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) : IVec S_ 1 :=
  let main_v0 : FVec F S2097152x8 .f32 := Host.absf main_arg0
  let main_cst : FVec F S_ .f32 := constant S_ .f32 0x7F800000#32
  let main_v1 : FVec F S2097152x8 .f32 := broadcastInDim S2097152x8 ![] bcast_S_S2097152x8 main_cst
  let main_v2 : IVec S2097152x8 1 := cmpf .olt main_v0 main_v1
  let main_c : IVec S_ 1 := constantI S_ 1 1#1
  let main_v3 : IVec S_ 1 := (fun x v => Host.reduce IntOp.andi x v reducesTo_S2097152x8_S_d0_1 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2097152x8 : Shape := ⟨2, ![2097152, 8]⟩
abbrev S16x3 : Shape := ⟨2, ![16, 3]⟩
abbrev S16 : Shape := ⟨1, ![16]⟩
abbrev S16x16 : Shape := ⟨2, ![16, 16]⟩
abbrev S8x2 : Shape := ⟨2, ![8, 2]⟩
abbrev S8 : Shape := ⟨1, ![8]⟩
abbrev S8x8 : Shape := ⟨2, ![8, 8]⟩
abbrev S8x3 : Shape := ⟨2, ![8, 3]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2097152x64 : Shape := ⟨2, ![2097152, 64]⟩
abbrev S4096x8 : Shape := ⟨2, ![4096, 8]⟩
abbrev S4096x64 : Shape := ⟨2, ![4096, 64]⟩
abbrev S4096x3 : Shape := ⟨2, ![4096, 3]⟩
abbrev S4096x2 : Shape := ⟨2, ![4096, 2]⟩
abbrev S3x16 : Shape := ⟨2, ![3, 16]⟩
abbrev S4096x16 : Shape := ⟨2, ![4096, 16]⟩
abbrev S1x16 : Shape := ⟨2, ![1, 16]⟩
abbrev S2x8 : Shape := ⟨2, ![2, 8]⟩
abbrev S1x8 : Shape := ⟨2, ![1, 8]⟩
abbrev S3x8 : Shape := ⟨2, ![3, 8]⟩
abbrev S4096x32 : Shape := ⟨2, ![4096, 32]⟩
abbrev S1x64 : Shape := ⟨2, ![1, 64]⟩
abbrev S4096 : Shape := ⟨1, ![4096]⟩
abbrev S4096x1 : Shape := ⟨2, ![4096, 1]⟩
abbrev S1x32 : Shape := ⟨2, ![1, 32]⟩

abbrev nBuf : Space → Nat
  | .hbm => 22
  | .vmem => 24
  | .smem => 0
  | _ => 0

abbrev bufTy : (tb : Table) → Fin (tcTables nBuf tb) → BufTy
  | .hbm, ⟨0, _⟩ => ⟨S2097152x8, .f32⟩
  | .hbm, ⟨1, _⟩ => ⟨S16x3, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S8x2, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x3, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S64x32, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S32x64, .f32⟩
  | .hbm, ⟨18, _⟩ => ⟨S32, .f32⟩
  | .hbm, ⟨19, _⟩ => ⟨S64x32, .f32⟩
  | .hbm, ⟨20, _⟩ => ⟨S64, .f32⟩
  | .hbm, ⟨21, _⟩ => ⟨S2097152x64, .f32⟩
  | .local _ .vmem, ⟨0, _⟩ => ⟨S4096x8, .f32⟩
  | .local _ .vmem, ⟨1, _⟩ => ⟨S4096x8, .f32⟩
  | .local _ .vmem, ⟨2, _⟩ => ⟨S16x3, .f32⟩
  | .local _ .vmem, ⟨3, _⟩ => ⟨S16, .f32⟩
  | .local _ .vmem, ⟨4, _⟩ => ⟨S16x16, .f32⟩
  | .local _ .vmem, ⟨5, _⟩ => ⟨S16, .f32⟩
  | .local _ .vmem, ⟨6, _⟩ => ⟨S8x2, .f32⟩
  | .local _ .vmem, ⟨7, _⟩ => ⟨S8, .f32⟩
  | .local _ .vmem, ⟨8, _⟩ => ⟨S8x8, .f32⟩
  | .local _ .vmem, ⟨9, _⟩ => ⟨S8, .f32⟩
  | .local _ .vmem, ⟨10, _⟩ => ⟨S8x3, .f32⟩
  | .local _ .vmem, ⟨11, _⟩ => ⟨S8, .f32⟩
  | .local _ .vmem, ⟨12, _⟩ => ⟨S8x8, .f32⟩
  | .local _ .vmem, ⟨13, _⟩ => ⟨S8, .f32⟩
  | .local _ .vmem, ⟨14, _⟩ => ⟨S64x32, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S32x64, .f32⟩
  | .local _ .vmem, ⟨19, _⟩ => ⟨S32, .f32⟩
  | .local _ .vmem, ⟨20, _⟩ => ⟨S64x32, .f32⟩
  | .local _ .vmem, ⟨21, _⟩ => ⟨S64, .f32⟩
  | .local _ .vmem, ⟨22, _⟩ => ⟨S4096x64, .f32⟩
  | .local _ .vmem, ⟨23, _⟩ => ⟨S4096x64, .f32⟩
  | _, _ => ⟨S2097152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S4096x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  slices_S4096x8_o0_0_S4096x3 : S4096x8.Slices ![0, 0] S4096x3
  slices_S4096x8_o0_3_S4096x2 : S4096x8.Slices ![0, 3] S4096x2
  slices_S4096x8_o0_5_S4096x3 : S4096x8.Slices ![0, 5] S4096x3
  inb_S16x3_S16x3_0_0 : ∀ a, (![0, 0] : Fin 2 → Nat) a + S16x3.size a ≤ S16x3.size a
  h_S16x3 : 0 < S16x3.numel
  bitsLt_bf16_f32 : FTy.bits .bf16 < FTy.bits .f32
  transposes_S16x3_p1_0_S3x16 : S16x3.Transposes [1, 0] S3x16
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  inb_S8x2_S8x2_0_0 : ∀ a, (![0, 0] : Fin 2 → Nat) a + S8x2.size a ≤ S8x2.size a
  h_S8x2 : 0 < S8x2.numel
  transposes_S8x2_p1_0_S2x8 : S8x2.Transposes [1, 0] S2x8
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S8x3_S8x3_0_0 : ∀ a, (![0, 0] : Fin 2 → Nat) a + S8x3.size a ≤ S8x3.size a
  h_S8x3 : 0 < S8x3.numel
  transposes_S8x3_p1_0_S3x8 : S8x3.Transposes [1, 0] S3x8
  concatenates_S4096x16_S4096x8_S4096x8_S4096x32_d1 : Shape.Concatenates [S4096x16, S4096x8, S4096x8] S4096x32 1
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S4096x64_S4096x64_0_0 : ∀ a, (![0, 0] : Fin 2 → Nat) a + S4096x64.size a ≤ S4096x64.size a
  h_S4096x64 : 0 < S4096x64.numel
  dot_S4096x3_S3x16_S4096x16_1_0_0_1_n_n_wf : DotDims.WF S4096x3 S3x16 S4096x16 [1] [0] [0] [1] [] []
  dot_S4096x16_S16x16_S4096x16_1_0_0_1_n_n_wf : DotDims.WF S4096x16 S16x16 S4096x16 [1] [0] [0] [1] [] []
  dot_S4096x2_S2x8_S4096x8_1_0_0_1_n_n_wf : DotDims.WF S4096x2 S2x8 S4096x8 [1] [0] [0] [1] [] []
  dot_S4096x8_S8x8_S4096x8_1_0_0_1_n_n_wf : DotDims.WF S4096x8 S8x8 S4096x8 [1] [0] [0] [1] [] []
  dot_S4096x3_S3x8_S4096x8_1_0_0_1_n_n_wf : DotDims.WF S4096x3 S3x8 S4096x8 [1] [0] [0] [1] [] []
  dot_S4096x32_S32x64_S4096x64_1_0_0_1_n_n_wf : DotDims.WF S4096x32 S32x64 S4096x64 [1] [0] [0] [1] [] []
  dot_S4096x64_S64x32_S4096x32_1_0_0_1_n_n_wf : DotDims.WF S4096x64 S64x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S2097152x8.size a
  hwx0_0 : ∀ i : grid0.Coords, EltTy.bits .f32 = 32 ∨ (Rect.block (s := S2097152x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x3.size a ≤ S16x3.size a
  hwx0_1 : ∀ i : grid0.Coords, EltTy.bits .f32 = 32 ∨ (Rect.block (s := S16x3) S16x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x2.size a ≤ S8x2.size a
  hwx0_5 : ∀ i : grid0.Coords, EltTy.bits .f32 = 32 ∨ (Rect.block (s := S8x2) S8x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x3.size a ≤ S8x3.size a
  hwx0_9 : ∀ i : grid0.Coords, EltTy.bits .f32 = 32 ∨ (Rect.block (s := S8x3) S8x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x8.size a ≤ S8x8.size a
  hwx0_11 : ∀ i : grid0.Coords, EltTy.bits .f32 = 32 ∨ (Rect.block (s := S8x8) S8x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .f32 = 32 ∨ (Rect.block (s := S64x32) S64x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S32x64.size a ≤ S32x64.size a
  hwx0_17 : ∀ i : grid0.Coords, EltTy.bits .f32 = 32 ∨ (Rect.block (s := S32x64) S32x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S32.size a ≤ S32.size a
  hwx0_18 : ∀ i : grid0.Coords, EltTy.bits .f32 = 32 ∨ (Rect.block (s := S32) S32.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x32.size a ≤ S64x32.size a
  hwx0_19 : ∀ i : grid0.Coords, EltTy.bits .f32 = 32 ∨ (Rect.block (s := S64x32) S64x32.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64.size a ≤ S64.size a
  hwx0_20 : ∀ i : grid0.Coords, EltTy.bits .f32 = 32 ∨ (Rect.block (s := S64) S64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4096x64.size a ≤ S2097152x64.size a
  hwx0_21 : ∀ i : grid0.Coords, EltTy.bits .f32 = 32 ∨ (Rect.block (s := S2097152x64) S4096x64.size (cc0_transform_21 i) (hinb0_21 i)).WholeWords (EltTy.packing .f32)

variable [Facts₀]

def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x2_S2x8_S4096x8_1_0_0_1_n_n : DotDims S4096x2 S2x8 S4096x8 where
  lhsContracting := [1]
  rhsContracting := [0]
  lhsNonContracting := [0]
  rhsNonContracting := [1]
  lhsBatch := []
  rhsBatch := []
  wf := dot_S4096x2_S2x8_S4096x8_1_0_0_1_n_n_wf
def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf
def dot_S4096x3_S3x8_S4096x8_1_0_0_1_n_n : DotDims S4096x3 S3x8 S4096x8 where
  lhsContracting := [1]
  rhsContracting := [0]
  lhsNonContracting := [0]
  rhsNonContracting := [1]
  lhsBatch := []
  rhsBatch := []
  wf := dot_S4096x3_S3x8_S4096x8_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S8x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S32x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64x32.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v0) S4096x64.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S2097152x8 : Shape := ⟨2, ![2097152, 8]⟩
abbrev S16x3 : Shape := ⟨2, ![16, 3]⟩
abbrev S16 : Shape := ⟨1, ![16]⟩
abbrev S16x16 : Shape := ⟨2, ![16, 16]⟩
abbrev S8x2 : Shape := ⟨2, ![8, 2]⟩
abbrev S8 : Shape := ⟨1, ![8]⟩
abbrev S8x8 : Shape := ⟨2, ![8, 8]⟩
abbrev S8x3 : Shape := ⟨2, ![8, 3]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2097152x3 : Shape := ⟨2, ![2097152, 3]⟩
abbrev S2097152x2 : Shape := ⟨2, ![2097152, 2]⟩
abbrev S3x16 : Shape := ⟨2, ![3, 16]⟩
abbrev S2097152x16 : Shape := ⟨2, ![2097152, 16]⟩
abbrev S1x16 : Shape := ⟨2, ![1, 16]⟩
abbrev S_ : Shape := ⟨0, ![]⟩
abbrev S2x8 : Shape := ⟨2, ![2, 8]⟩
abbrev S1x8 : Shape := ⟨2, ![1, 8]⟩
abbrev S3x8 : Shape := ⟨2, ![3, 8]⟩
abbrev S2097152x32 : Shape := ⟨2, ![2097152, 32]⟩
abbrev S2097152x64 : Shape := ⟨2, ![2097152, 64]⟩
abbrev S1x64 : Shape := ⟨2, ![1, 64]⟩
abbrev S2097152 : Shape := ⟨1, ![2097152]⟩
abbrev S2097152x1 : Shape := ⟨2, ![2097152, 1]⟩
abbrev S1x32 : Shape := ⟨2, ![1, 32]⟩

abbrev nBuf : Space → Nat
  | .hbm => 113
  | .vmem => 0
  | .smem => 0
  | _ => 0

abbrev bufTy : (tb : Table) → Fin (tcTables nBuf tb) → BufTy
  | .hbm, ⟨0, _⟩ => ⟨S2097152x8, .f32⟩
  | .hbm, ⟨1, _⟩ => ⟨S16x3, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S8x2, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x3, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S64x32, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S32x64, .f32⟩
  | .hbm, ⟨18, _⟩ => ⟨S32, .f32⟩
  | .hbm, ⟨19, _⟩ => ⟨S64x32, .f32⟩
  | .hbm, ⟨20, _⟩ => ⟨S64, .f32⟩
  | .hbm, ⟨21, _⟩ => ⟨S2097152x3, .f32⟩
  | .hbm, ⟨22, _⟩ => ⟨S2097152x2, .f32⟩
  | .hbm, ⟨23, _⟩ => ⟨S2097152x3, .f32⟩
  | .hbm, ⟨24, _⟩ => ⟨S3x16, .f32⟩
  | .hbm, ⟨25, _⟩ => ⟨S2097152x16, .f32⟩
  | .hbm, ⟨26, _⟩ => ⟨S1x16, .f32⟩
  | .hbm, ⟨27, _⟩ => ⟨S2097152x16, .f32⟩
  | .hbm, ⟨28, _⟩ => ⟨S2097152x16, .f32⟩
  | .hbm, ⟨29, _⟩ => ⟨S_, .f32⟩
  | .hbm, ⟨30, _⟩ => ⟨S2097152x16, .f32⟩
  | .hbm, ⟨31, _⟩ => ⟨S2097152x16, .f32⟩
  | .hbm, ⟨32, _⟩ => ⟨S16x16, .f32⟩
  | .hbm, ⟨33, _⟩ => ⟨S2097152x16, .f32⟩
  | .hbm, ⟨34, _⟩ => ⟨S1x16, .f32⟩
  | .hbm, ⟨35, _⟩ => ⟨S2097152x16, .f32⟩
  | .hbm, ⟨36, _⟩ => ⟨S2097152x16, .f32⟩
  | .hbm, ⟨37, _⟩ => ⟨S2x8, .f32⟩
  | .hbm, ⟨38, _⟩ => ⟨S2097152x8, .f32⟩
  | .hbm, ⟨39, _⟩ => ⟨S1x8, .f32⟩
  | .hbm, ⟨40, _⟩ => ⟨S2097152x8, .f32⟩
  | .hbm, ⟨41, _⟩ => ⟨S2097152x8, .f32⟩
  | .hbm, ⟨42, _⟩ => ⟨S_, .f32⟩
  | .hbm, ⟨43, _⟩ => ⟨S2097152x8, .f32⟩
  | .hbm, ⟨44, _⟩ => ⟨S2097152x8, .f32⟩
  | .hbm, ⟨45, _⟩ => ⟨S8x8, .f32⟩
  | .hbm, ⟨46, _⟩ => ⟨S2097152x8, .f32⟩
  | .hbm, ⟨47, _⟩ => ⟨S1x8, .f32⟩
  | .hbm, ⟨48, _⟩ => ⟨S2097152x8, .f32⟩
  | .hbm, ⟨49, _⟩ => ⟨S2097152x8, .f32⟩
  | .hbm, ⟨50, _⟩ => ⟨S3x8, .f32⟩
  | .hbm, ⟨51, _⟩ => ⟨S2097152x8, .f32⟩
  | .hbm, ⟨52, _⟩ => ⟨S1x8, .f32⟩
  | .hbm, ⟨53, _⟩ => ⟨S2097152x8, .f32⟩
  | .hbm, ⟨54, _⟩ => ⟨S2097152x8, .f32⟩
  | .hbm, ⟨55, _⟩ => ⟨S_, .f32⟩
  | .hbm, ⟨56, _⟩ => ⟨S2097152x8, .f32⟩
  | .hbm, ⟨57, _⟩ => ⟨S2097152x8, .f32⟩
  | .hbm, ⟨58, _⟩ => ⟨S8x8, .f32⟩
  | .hbm, ⟨59, _⟩ => ⟨S2097152x8, .f32⟩
  | .hbm, ⟨60, _⟩ => ⟨S1x8, .f32⟩
  | .hbm, ⟨61, _⟩ => ⟨S2097152x8, .f32⟩
  | .hbm, ⟨62, _⟩ => ⟨S2097152x8, .f32⟩
  | .hbm, ⟨63, _⟩ => ⟨S2097152x32, .f32⟩
  | .hbm, ⟨64, _⟩ => ⟨S32x64, .f32⟩
  | .hbm, ⟨65, _⟩ => ⟨S2097152x64, .f32⟩
  | .hbm, ⟨66, _⟩ => ⟨S1x64, .f32⟩
  | .hbm, ⟨67, _⟩ => ⟨S2097152x64, .f32⟩
  | .hbm, ⟨68, _⟩ => ⟨S2097152x64, .f32⟩
  | .hbm, ⟨69, _⟩ => ⟨S_, .f32⟩
  | .hbm, ⟨70, _⟩ => ⟨S2097152, .f32⟩
  | .hbm, ⟨71, _⟩ => ⟨S2097152x1, .f32⟩
  | .hbm, ⟨72, _⟩ => ⟨S_, .f32⟩
  | .hbm, ⟨73, _⟩ => ⟨S2097152x1, .f32⟩
  | .hbm, ⟨74, _⟩ => ⟨S2097152x1, .f32⟩
  | .hbm, ⟨75, _⟩ => ⟨S2097152x64, .f32⟩
  | .hbm, ⟨76, _⟩ => ⟨S2097152x64, .f32⟩
  | .hbm, ⟨77, _⟩ => ⟨S2097152x64, .f32⟩
  | .hbm, ⟨78, _⟩ => ⟨S_, .f32⟩
  | .hbm, ⟨79, _⟩ => ⟨S2097152, .f32⟩
  | .hbm, ⟨80, _⟩ => ⟨S2097152x1, .f32⟩
  | .hbm, ⟨81, _⟩ => ⟨S_, .f32⟩
  | .hbm, ⟨82, _⟩ => ⟨S2097152x1, .f32⟩
  | .hbm, ⟨83, _⟩ => ⟨S2097152x1, .f32⟩
  | .hbm, ⟨84, _⟩ => ⟨S2097152x64, .f32⟩
  | .hbm, ⟨85, _⟩ => ⟨S2097152x64, .f32⟩
  | .hbm, ⟨86, _⟩ => ⟨S_, .f32⟩
  | .hbm, ⟨87, _⟩ => ⟨S2097152x1, .f32⟩
  | .hbm, ⟨88, _⟩ => ⟨S2097152x1, .f32⟩
  | .hbm, ⟨89, _⟩ => ⟨S2097152x1, .f32⟩
  | .hbm, ⟨90, _⟩ => ⟨S2097152x64, .f32⟩
  | .hbm, ⟨91, _⟩ => ⟨S2097152x64, .f32⟩
  | .hbm, ⟨92, _⟩ => ⟨S1x64, .f32⟩
  | .hbm, ⟨93, _⟩ => ⟨S2097152x64, .f32⟩
  | .hbm, ⟨94, _⟩ => ⟨S2097152x64, .f32⟩
  | .hbm, ⟨95, _⟩ => ⟨S1x64, .f32⟩
  | .hbm, ⟨96, _⟩ => ⟨S2097152x64, .f32⟩
  | .hbm, ⟨97, _⟩ => ⟨S2097152x64, .f32⟩
  | .hbm, ⟨98, _⟩ => ⟨S2097152x64, .f32⟩
  | .hbm, ⟨99, _⟩ => ⟨S64x32, .f32⟩
  | .hbm, ⟨100, _⟩ => ⟨S2097152x32, .f32⟩
  | .hbm, ⟨101, _⟩ => ⟨S1x32, .f32⟩
  | .hbm, ⟨102, _⟩ => ⟨S2097152x32, .f32⟩
  | .hbm, ⟨103, _⟩ => ⟨S2097152x32, .f32⟩
  | .hbm, ⟨104, _⟩ => ⟨S_, .f32⟩
  | .hbm, ⟨105, _⟩ => ⟨S2097152x32, .f32⟩
  | .hbm, ⟨106, _⟩ => ⟨S2097152x32, .f32⟩
  | .hbm, ⟨107, _⟩ => ⟨S32x64, .f32⟩
  | .hbm, ⟨108, _⟩ => ⟨S2097152x64, .f32⟩
  | .hbm, ⟨109, _⟩ => ⟨S1x64, .f32⟩
  | .hbm, ⟨110, _⟩ => ⟨S2097152x64, .f32⟩
  | .hbm, ⟨111, _⟩ => ⟨S2097152x64, .f32⟩
  | .hbm, ⟨112, _⟩ => ⟨S2097152x64, .f32⟩
  | _, _ => ⟨S2097152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_cst : Ref sig .tc := ⟨.hbm, 29, rfl⟩
abbrev main_call0_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_cst : Ref sig .tc := ⟨.hbm, 42, rfl⟩
abbrev main_call1_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst : Ref sig .tc := ⟨.hbm, 69, rfl⟩
abbrev main_v42 : Ref sig .tc := ⟨.hbm, 70, rfl⟩
abbrev main_v43 : Ref sig .tc := ⟨.hbm, 71, rfl⟩
abbrev main_cst_0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_1 : Ref sig .tc := ⟨.hbm, 78, rfl⟩
abbrev main_v49 : Ref sig .tc := ⟨.hbm, 79, rfl⟩
abbrev main_v50 : Ref sig .tc := ⟨.hbm, 80, rfl⟩
abbrev main_cst_2 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_3 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  slices_S2097152x8_S2097152x3_0_0 : S2097152x8.Slices ![0, 0] S2097152x3
  slices_S2097152x8_S2097152x2_0_3 : S2097152x8.Slices ![0, 3] S2097152x2
  slices_S2097152x8_S2097152x3_0_5 : S2097152x8.Slices ![0, 5] S2097152x3
  transposes_S16x3_S3x16_1_0 : S16x3.Transposes [1, 0] S3x16
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  transposes_S16x16_S16x16_1_0 : S16x16.Transposes [1, 0] S16x16
  transposes_S8x2_S2x8_1_0 : S8x2.Transposes [1, 0] S2x8
  bcast_S8_S1x8_1 : S8.BroadcastsInDim S1x8 (![1] : Fin 1 → Fin S1x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  transposes_S8x8_S8x8_1_0 : S8x8.Transposes [1, 0] S8x8
  transposes_S8x3_S3x8_1_0 : S8x3.Transposes [1, 0] S3x8
  concatenates_S2097152x16_S2097152x8_S2097152x8_S2097152x32_d1 : Shape.Concatenates [S2097152x16, S2097152x8, S2097152x8] S2097152x32 1
  transposes_S64x32_S32x64_1_0 : S64x32.Transposes [1, 0] S32x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  reducesTo_S2097152x64_S2097152_d1 : S2097152x64.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x64_0_1 : S2097152x1.BroadcastsInDim S2097152x64 (![0, 1] : Fin 2 → Fin S2097152x64.rank)
  transposes_S32x64_S64x32_1_0 : S32x64.Transposes [1, 0] S64x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  dot_S2097152x3_S3x16_S2097152x16_1_0_0_1_n_n_wf : DotDims.WF S2097152x3 S3x16 S2097152x16 [1] [0] [0] [1] [] []
  dot_S2097152x16_S16x16_S2097152x16_1_0_0_1_n_n_wf : DotDims.WF S2097152x16 S16x16 S2097152x16 [1] [0] [0] [1] [] []
  dot_S2097152x2_S2x8_S2097152x8_1_0_0_1_n_n_wf : DotDims.WF S2097152x2 S2x8 S2097152x8 [1] [0] [0] [1] [] []
  dot_S2097152x8_S8x8_S2097152x8_1_0_0_1_n_n_wf : DotDims.WF S2097152x8 S8x8 S2097152x8 [1] [0] [0] [1] [] []
  dot_S2097152x3_S3x8_S2097152x8_1_0_0_1_n_n_wf : DotDims.WF S2097152x3 S3x8 S2097152x8 [1] [0] [0] [1] [] []
  dot_S2097152x32_S32x64_S2097152x64_1_0_0_1_n_n_wf : DotDims.WF S2097152x32 S32x64 S2097152x64 [1] [0] [0] [1] [] []
  dot_S2097152x64_S64x32_S2097152x32_1_0_0_1_n_n_wf : DotDims.WF S2097152x64 S64x32 S2097152x32 [1] [0] [0] [1] [] []

variable [Facts₀]

def dot_S2097152x3_S3x16_S2097152x16_1_0_0_1_n_n : DotDims S2097152x3 S3x16 S2097152x16 where
  lhsContracting := [1]
  rhsContracting := [0]
  lhsNonContracting := [0]
  rhsNonContracting := [1]
  lhsBatch := []
  rhsBatch := []
  wf := dot_S2097152x3_S3x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S2097152x2_S2x8_S2097152x8_1_0_0_1_n_n : DotDims S2097152x2 S2x8 S2097152x8 where
  lhsContracting := [1]
  rhsContracting := [0]
  lhsNonContracting := [0]
  rhsNonContracting := [1]
  lhsBatch := []
  rhsBatch := []
  wf := dot_S2097152x2_S2x8_S2097152x8_1_0_0_1_n_n_wf
def dot_S2097152x8_S8x8_S2097152x8_1_0_0_1_n_n : DotDims S2097152x8 S8x8 S2097152x8 where
  lhsContracting := [1]
  rhsContracting := [0]
  lhsNonContracting := [0]
  rhsNonContracting := [1]
  lhsBatch := []
  rhsBatch := []
  wf := dot_S2097152x8_S8x8_S2097152x8_1_0_0_1_n_n_wf
def dot_S2097152x3_S3x8_S2097152x8_1_0_0_1_n_n : DotDims S2097152x3 S3x8 S2097152x8 where
  lhsContracting := [1]
  rhsContracting := [0]
  lhsNonContracting := [0]
  rhsNonContracting := [1]
  lhsBatch := []
  rhsBatch := []
  wf := dot_S2097152x3_S3x8_S2097152x8_1_0_0_1_n_n_wf
def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x32_S2097152x32_1_0_0_1_n_n : DotDims S2097152x64 S64x32 S2097152x32 where
  lhsContracting := [1]
  rhsContracting := [0]
  lhsNonContracting := [0]
  rhsNonContracting := [1]
  lhsBatch := []
  rhsBatch := []
  wf := dot_S2097152x64_S64x32_S2097152x32_1_0_0_1_n_n_wf

class Facts : Prop extends Facts₀ where

variable [Facts]
-- ==== Proof.RowSpec.lean ====
/-
  The network applied to ONE ROW of the input, as a function on the extended reals.

  A row `x` has eight entries.  Columns 0..2, 3..4 and 5..7 each pass through a two-layer perceptron
  (affine map, rectifier, affine map), giving 16 + 8 + 8 features, laid side by side into 32.  An affine map
  sends these to 64 hidden values `h`.  The hidden values are normalised: with `μ = (∑ h) / 64` and
  `σ² = (∑ (h - μ)²) / 64`, the base value at `j` is `tanh ((h j - μ) · (σ² + ε)^(-1/2) · g j + β j)` (`normed`).  A last two-layer
  perceptron of the base values is added back to them (`resid`).  Every sum is a finite sum over the columns of the row;
  nothing couples two different rows, so the whole array is this function row by row (`G`).

  An affine map with weight matrix `w` (one row of `w` per output) and offset `b` is
  `j ↦ (∑ k, v k · w j k) + b j`.  The float words (zero, sixty-four, ε) are kept as the words they are.
-/
import Idealize.ShloMosaic.PureOps.Ideal
import Idealize.ShloMosaic.Lib.ValueIdx

noncomputable section

open scoped BigOperators

namespace Cert.RowNet

open Idealize.ShloMosaic Idealize.ShloMosaic.ValueIdx

/-- The twenty weight and offset arrays of the network. -/
structure Params where
  wRgb1 : FVec Ideal ⟨2, ![16, 3]⟩ .f32
  bRgb1 : FVec Ideal ⟨1, ![16]⟩ .f32
  wRgb2 : FVec Ideal ⟨2, ![16, 16]⟩ .f32
  bRgb2 : FVec Ideal ⟨1, ![16]⟩ .f32
  wIr1 : FVec Ideal ⟨2, ![8, 2]⟩ .f32
  bIr1 : FVec Ideal ⟨1, ![8]⟩ .f32
  wIr2 : FVec Ideal ⟨2, ![8, 8]⟩ .f32
  bIr2 : FVec Ideal ⟨1, ![8]⟩ .f32
  wN1 : FVec Ideal ⟨2, ![8, 3]⟩ .f32
  bN1 : FVec Ideal ⟨1, ![8]⟩ .f32
  wN2 : FVec Ideal ⟨2, ![8, 8]⟩ .f32
  bN2 : FVec Ideal ⟨1, ![8]⟩ .f32
  wComb : FVec Ideal ⟨2, ![64, 32]⟩ .f32
  bComb : FVec Ideal ⟨1, ![64]⟩ .f32
  lnG : FVec Ideal ⟨1, ![64]⟩ .f32
  lnB : FVec Ideal ⟨1, ![64]⟩ .f32
  wS1 : FVec Ideal ⟨2, ![32, 64]⟩ .f32
  bS1 : FVec Ideal ⟨1, ![32]⟩ .f32
  wS2 : FVec Ideal ⟨2, ![64, 32]⟩ .f32
  bS2 : FVec Ideal ⟨1, ![64]⟩ .f32

/-- An affine map at one row: output `j` is the row's inner product with row `j` of the weights, plus the offset. -/
def affine {K M : ℕ} (w : FVec Ideal ⟨2, ![M, K]⟩ .f32) (b : FVec Ideal ⟨1, ![M]⟩ .f32) (v : Fin K → EReal) (j : Fin M) : EReal :=
  (∑ k : Fin K, v k * w (ix2 j k)) + b (ix1 j)

/-- The rectifier: the larger of the value and the zero word. -/
def relu {M : ℕ} (v : Fin M → EReal) (j : Fin M) : EReal := max (v j) (Ideal.ofBits .f32 0x00000000#32)

/-- `K` consecutive columns of an eight-entry row, from column `o`. -/
def cols (o K : ℕ) (h : o + K ≤ 8) (x : Fin 8 → EReal) (k : Fin K) : EReal := x ⟨o + k.val, by omega⟩

/-- Sixteen, eight and eight values side by side. -/
def cat3 (a : Fin 16 → EReal) (b : Fin 8 → EReal) (c : Fin 8 → EReal) (j : Fin 32) : EReal :=
  if h : j.val < 16 then a ⟨j.val, h⟩ else if h' : j.val < 24 then b ⟨j.val - 16, by omega⟩ else c ⟨j.val - 24, by omega⟩

/-- Affine, rectifier, affine. -/
def mlp {K H M : ℕ} (w1 : FVec Ideal ⟨2, ![H, K]⟩ .f32) (b1 : FVec Ideal ⟨1, ![H]⟩ .f32)
    (w2 : FVec Ideal ⟨2, ![M, H]⟩ .f32) (b2 : FVec Ideal ⟨1, ![M]⟩ .f32) (v : Fin K → EReal) : Fin M → EReal :=
  affine w2 b2 (relu (affine w1 b1 v))

/-- The 32 features of a row: the three column groups, each through its own perceptron. -/
def feat (P : Params) (x : Fin 8 → EReal) : Fin 32 → EReal :=
  cat3 (mlp P.wRgb1 P.bRgb1 P.wRgb2 P.bRgb2 (cols 0 3 (by omega) x))
    (mlp P.wIr1 P.bIr1 P.wIr2 P.bIr2 (cols 3 2 (by omega) x))
    (mlp P.wN1 P.bN1 P.wN2 P.bN2 (cols 5 3 (by omega) x))

/-- The 64 hidden values of a row. -/
def hid (P : Params) (x : Fin 8 → EReal) : Fin 64 → EReal := affine P.wComb P.bComb (feat P x)

/-- The sum of 64 values over the word sixty-four. -/
def mean64 (v : Fin 64 → EReal) : EReal := Ideal.div (∑ k : Fin 64, v k) (Ideal.ofBits .f32 0x42800000#32)

/-- A value's distance from the mean of the 64. -/
def dev (h : Fin 64 → EReal) (j : Fin 64) : EReal := h j - mean64 h

/-- Sixty-four values normalised by their mean and variance, scaled by `g`, shifted by `β`, through tanh. -/
def normed (g β : FVec Ideal ⟨1, ![64]⟩ .f32) (h : Fin 64 → EReal) (j : Fin 64) : EReal :=
  Ideal.tanh (dev h j
      * Ideal.rsqrt (mean64 (fun k => dev h k * dev h k) + Ideal.ofBits .f32 0x3727C5AC#32)
      * g (ix1 j) + β (ix1 j))

/-- The normalised hidden value through tanh. -/
def base (P : Params) (x : Fin 8 → EReal) : Fin 64 → EReal := normed P.lnG P.lnB (hid P x)

/-- Sixty-four values plus a two-layer perceptron of them. -/
def resid (w1 : FVec Ideal ⟨2, ![32, 64]⟩ .f32) (b1 : FVec Ideal ⟨1, ![32]⟩ .f32)
    (w2 : FVec Ideal ⟨2, ![64, 32]⟩ .f32) (b2 : FVec Ideal ⟨1, ![64]⟩ .f32) (v : Fin 64 → EReal) (j : Fin 64) : EReal :=
  v j + mlp w1 b1 w2 b2 v j

/-- The network's output for one row. -/
def rowOut (P : Params) (x : Fin 8 → EReal) : Fin 64 → EReal := resid P.wS1 P.bS1 P.wS2 P.bS2 (base P x)

/-- The whole output array: `rowOut` of each row of the input array. -/
def G (P : Params) (X : FVec Ideal ⟨2, ![2097152, 8]⟩ .f32) : FVec Ideal ⟨2, ![2097152, 64]⟩ .f32 :=
  fun i => rowOut P (fun k => X (ix2 (n0 := 2097152) (i 0) k)) (i 1)

theorem G_apply (P : Params) (X : FVec Ideal ⟨2, ![2097152, 8]⟩ .f32) (r : Fin 2097152) (j : Fin 64) :
    G P X (ix2 r j) = rowOut P (fun k => X (ix2 r k)) j := rfl

end Cert.RowNet

end
-- ==== Proof.LibRowOps.lean ====
/-
  Row-wise readings of the matrix operations a row network is made of, at the extended reals.

  A matrix product with the plain dimension numbers (rows by contraction times contraction by columns), read at
  entry `(p, q)`, is the sum over the contraction coordinate `k` of the left operand at `(p, k)` times the right at `(k, q)`.
  Against a transposed weight matrix this is the inner product of row `p` with weight row `q`.
  A one-row array broadcast over many rows reads its one row; a column of one value per row broadcast across the row
  reads that row's value; a sum along the rows' axis kept as a column reads the finite sum of the row.
  Three blocks laid side by side along the columns read, at column `c`, the block that column falls in.
-/
import Idealize.ShloMosaic.Lib.ValueLayout
import Idealize.ShloMosaic.Lib.ValueIdx
import Idealize.ShloMosaic.PureOps.Ideal.Laws

noncomputable section

open scoped BigOperators

namespace Cert.RowOps

open Idealize.ShloMosaic Idealize.ShloMosaic.ValueIdx

variable {α : Type}

/-! ## The plain dimension numbers -/

theorem plain_lhs0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 {M K N : ℕ} (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 {M K N : ℕ} (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of the plain dimension numbers at `(p, q)`, re-indexed by the contraction coordinate. -/
theorem plain_sum {M K N : ℕ} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-! ## A product against a transposed weight matrix -/

/-- The vector unit's product into a zero accumulator, the right operand a transposed `M × K` matrix: entry `(p, j)` is the
    inner product of row `p` of the left operand with row `j` of the matrix. -/
theorem matmulT_apply {N K M : ℕ} {φ₁ φ₂ : FTy} (d : DotDims ⟨2, ![N, K]⟩ ⟨2, ![K, M]⟩ ⟨2, ![N, M]⟩) (hd : d = DotDims.plain N K M)
    (prec : Option ContractPrecision) (xs : FVec Ideal ⟨2, ![N, K]⟩ φ₁) (w : FVec Ideal ⟨2, ![M, K]⟩ φ₂)
    (hT : (⟨2, ![M, K]⟩ : Shape).Transposes [1, 0] ⟨2, ![K, M]⟩) (p : Fin N) (j : Fin M) :
    matmul d prec xs (transpose ⟨2, ![K, M]⟩ [1, 0] w hT) (constant ⟨2, ![N, M]⟩ .f32 0x00000000#32) (ix2 p j)
      = ∑ k : Fin K, xs (ix2 p k) * w (ix2 j k) := by
  subst hd
  refine (Ideal.matmul_constant_zero_apply (DotDims.plain N K M) prec xs (transpose ⟨2, ![K, M]⟩ [1, 0] w hT) (ix2 p j)).trans ?_
  refine (plain_sum xs _ p j).trans ?_
  exact Finset.sum_congr rfl fun k _ => by rw [transpose_ix2_apply]

/-- The host's product, the right operand a transposed `M × K` matrix: the same inner product. -/
theorem dotT_apply {N K M : ℕ} {φ₁ φ₂ : FTy} (d : DotDims ⟨2, ![N, K]⟩ ⟨2, ![K, M]⟩ ⟨2, ![N, M]⟩) (hd : d = DotDims.plain N K M)
    (prec : Option ContractPrecision) (xs : FVec Ideal ⟨2, ![N, K]⟩ φ₁) (w : FVec Ideal ⟨2, ![M, K]⟩ φ₂)
    (hT : (⟨2, ![M, K]⟩ : Shape).Transposes [1, 0] ⟨2, ![K, M]⟩) (p : Fin N) (j : Fin M) :
    Host.dotGeneral d prec xs (transpose ⟨2, ![K, M]⟩ [1, 0] w hT) (ix2 p j)
      = ∑ k : Fin K, xs (ix2 p k) * w (ix2 j k) := by
  subst hd
  refine (Ideal.dotGeneral_apply (DotDims.plain N K M) prec .single xs (transpose ⟨2, ![K, M]⟩ [1, 0] w hT) (ix2 p j)).trans ?_
  refine (plain_sum xs _ p j).trans ?_
  exact Finset.sum_congr rfl fun k _ => by rw [transpose_ix2_apply]

/-! ## Offsets, columns and row sums on the vector unit -/

/-- An offset vector laid as one row and repeated down the rows reads, at `(p, j)`, its entry `j`. -/
theorem biasrow_apply {N M : ℕ} (b : (⟨1, ![M]⟩ : Shape).Idx → α) (hS : (⟨1, ![M]⟩ : Shape).ShapeCasts ⟨2, ![1, M]⟩)
    (hB : (⟨2, ![1, M]⟩ : Shape).Broadcasts ⟨2, ![N, M]⟩) (p : Fin N) (j : Fin M) :
    broadcastTo ⟨2, ![N, M]⟩ (shapeCast ⟨2, ![1, M]⟩ b hS) hB (ix2 p j) = b (ix1 j) :=
  (broadcastTo_1b_ab_apply _ hB p j).trans (shapeCast_a_1a_apply b hS 0 j)

/-- One value per row, laid as a column: entry `(p, u)` is the value of row `p`. -/
theorem column_apply {N : ℕ} (v : (⟨1, ![N]⟩ : Shape).Idx → α) (hS : (⟨1, ![N]⟩ : Shape).ShapeCasts ⟨2, ![N, 1]⟩)
    (p : Fin N) (u : Fin 1) : shapeCast ⟨2, ![N, 1]⟩ v hS (ix2 p u) = v (ix1 p) :=
  shapeCast_apply v hS _ _ (by
    have hu : u.val = 0 := by omega
    rw [Shape.rowMajor_val_two, Shape.rowMajor_val_one]
    show p.val = p.val * 1 + u.val
    rw [hu, Nat.mul_one, Nat.add_zero])

/-- A column repeated across the row reads, at `(p, j)`, the column's value in row `p`. -/
theorem spread_apply {N M : ℕ} (v : (⟨2, ![N, 1]⟩ : Shape).Idx → α) (hB : (⟨2, ![N, 1]⟩ : Shape).Broadcasts ⟨2, ![N, M]⟩)
    (p : Fin N) (j : Fin M) : broadcastTo ⟨2, ![N, M]⟩ v hB (ix2 p j) = v (ix2 p (0 : Fin 1)) := by
  refine broadcastTo_apply v hB (ix2 p j) (ix2 p (0 : Fin 1)) fun ax => ?_
  match ax with
  | ⟨0, _⟩ =>
    show p.val = if N = 1 then 0 else p.val
    split
    · have := p.isLt; omega
    · rfl
  | ⟨1, _⟩ => rfl

/-- The sum along each row, at the extended reals, is the finite sum of the row's entries. -/
theorem rowsum_apply {N M : ℕ} {φ : FTy} (src : FVec Ideal ⟨2, ![N, M]⟩ φ) (acc : BitVec φ.bits)
    (h : (⟨2, ![N, M]⟩ : Shape).Reduces [1] ⟨1, ![N]⟩) (hφ : FKind.Formats φ) (hacc : acc = FKind.add.neutral φ hφ) (p : Fin N) :
    multiReduction .add [1] ⟨1, ![N]⟩ src acc h hφ hacc (ix1 p) = ∑ k : Fin M, src (ix2 p k) := by
  refine (Ideal.multiReduction_add_single src acc h hφ hacc (ix1 p)).trans ?_
  refine Finset.sum_congr rfl fun k _ => congrArg src (funext fun a => Fin.ext ?_)
  match a with
  | ⟨0, _⟩ => rfl
  | ⟨1, _⟩ => rfl

/-! ## Three blocks side by side -/

/-- Blocks of 16, 8 and 8 columns laid side by side read, at column `j`, the block that column falls in. -/
theorem cat3_apply {N : ℕ} (a : (⟨2, ![N, 16]⟩ : Shape).Idx → α) (b : (⟨2, ![N, 8]⟩ : Shape).Idx → α)
    (c : (⟨2, ![N, 8]⟩ : Shape).Idx → α)
    (h : Shape.Concatenates ([(⟨⟨2, ![N, 16]⟩, a⟩ : (s : Shape) × (s.Idx → α)), ⟨⟨2, ![N, 8]⟩, b⟩, ⟨⟨2, ![N, 8]⟩, c⟩].map (·.1)) ⟨2, ![N, 32]⟩ 1)
    (p : Fin N) (j : Fin 32) :
    concatenate ⟨2, ![N, 32]⟩ 1 [⟨⟨2, ![N, 16]⟩, a⟩, ⟨⟨2, ![N, 8]⟩, b⟩, ⟨⟨2, ![N, 8]⟩, c⟩] h (ix2 p j)
      = if h1 : j.val < 16 then a (ix2 p ⟨j.val, h1⟩)
        else if h2 : j.val < 24 then b (ix2 p ⟨j.val - 16, by omega⟩) else c (ix2 p ⟨j.val - 24, by omega⟩) := by
  by_cases h1 : j.val < 16
  · rw [dif_pos h1]
    refine concatenate_apply_piece 1 _ h (ix2 p j) 0 (by show 0 < 3; omega) ⟨2, ![N, 16]⟩ a rfl rfl 0 rfl (ix2 p ⟨j.val, h1⟩) (fun bb hb => ?_) ?_
    · match bb with
      | ⟨0, _⟩ => rfl
      | ⟨1, _⟩ => exact absurd rfl hb
    · show 0 + j.val = j.val
      omega
  · rw [dif_neg h1]
    by_cases h2 : j.val < 24
    · rw [dif_pos h2]
      refine concatenate_apply_piece 1 _ h (ix2 p j) 1 (by show 1 < 3; omega) ⟨2, ![N, 8]⟩ b rfl rfl 16 rfl (ix2 p ⟨j.val - 16, by omega⟩) (fun bb hb => ?_) ?_
      · match bb with
        | ⟨0, _⟩ => rfl
        | ⟨1, _⟩ => exact absurd rfl hb
      · show 16 + (j.val - 16) = j.val
        omega
    · rw [dif_neg h2]
      refine concatenate_apply_piece 1 _ h (ix2 p j) 2 (by show 2 < 3; omega) ⟨2, ![N, 8]⟩ c rfl rfl 24 rfl (ix2 p ⟨j.val - 24, by have := j.isLt; omega⟩) (fun bb hb => ?_) ?_
      · match bb with
        | ⟨0, _⟩ => rfl
        | ⟨1, _⟩ => exact absurd rfl hb
      · show 24 + (j.val - 24) = j.val
        omega

end Cert.RowOps

end
-- ==== Proof.KernelRow.lean ====
/-
  One block of the kernel's output, read at an entry, is the row network of the matching row of the input block.

  The body's arithmetic is a tree of affine layers (a product against a transposed weight matrix into a zero accumulator,
  plus an offset row), rectifiers, column slices, one side-by-side join, two row sums kept as columns, and pointwise
  arithmetic.  Each of these, read at entry `(p, j)`, depends only on row `p` of its operands; so a fact about row `p` of
  each operand (`∀ k, v (p, k) = row k`) is carried through the layers, one lemma per kind of layer, and the pieces of the body
  are read in the order the body computes them.  Changes of float format are the identity at the extended reals.
-/
import proofs.«161402_j47193100648813_1_alg».proof.Proof.Gen.KernelIdeal.Frame
import proofs.«161402_j47193100648813_1_alg».proof.Proof.RowSpec
import proofs.«161402_j47193100648813_1_alg».proof.Proof.LibRowOps

noncomputable section

open scoped BigOperators

namespace Cert.KernelIdeal.RowValue

open Cert.KernelIdeal Cert.KernelIdeal.Gen Idealize.ShloMosaic Idealize.ShloMosaic.ValueIdx Cert.RowNet Cert.RowOps

/-! ## The layers, at one row -/

/-- An affine layer: if row `p` of the operand is `row`, entry `(p, j)` of the layer's result is `affine w b row j`. -/
theorem affine_layer {N K M : ℕ} (d : DotDims ⟨2, ![N, K]⟩ ⟨2, ![K, M]⟩ ⟨2, ![N, M]⟩) (hd : d = DotDims.plain N K M)
    (xs : FVec Ideal ⟨2, ![N, K]⟩ .f32) (w : FVec Ideal ⟨2, ![M, K]⟩ .f32) (b : FVec Ideal ⟨1, ![M]⟩ .f32)
    (hlt : FTy.bits .bf16 < FTy.bits .f32)
    (hT : (⟨2, ![M, K]⟩ : Shape).Transposes [1, 0] ⟨2, ![K, M]⟩) (hS : (⟨1, ![M]⟩ : Shape).ShapeCasts ⟨2, ![1, M]⟩)
    (hB : (⟨2, ![1, M]⟩ : Shape).Broadcasts ⟨2, ![N, M]⟩) (p : Fin N) (row : Fin K → EReal)
    (hrow : ∀ k, xs (ix2 p k) = row k) (j : Fin M) :
    addf (matmul d none (truncf .bf16 xs hlt) (transpose ⟨2, ![K, M]⟩ [1, 0] (truncf .bf16 w hlt) hT)
        (constant ⟨2, ![N, M]⟩ .f32 0x00000000#32))
      (broadcastTo ⟨2, ![N, M]⟩ (shapeCast ⟨2, ![1, M]⟩ b hS) hB) (ix2 p j) = affine w b row j := by
  show _ + _ = _
  unfold affine
  refine congrArg₂ (· + ·) ?_ (biasrow_apply b hS hB p j)
  refine (matmulT_apply d hd none (truncf .bf16 xs hlt) (truncf .bf16 w hlt) hT p j).trans ?_
  exact Finset.sum_congr rfl fun k _ => congrArg₂ (· * ·) (hrow k) rfl

/-- The product alone (the offset added later): the inner product of the row with weight row `j`. -/
theorem product_layer {N K M : ℕ} (d : DotDims ⟨2, ![N, K]⟩ ⟨2, ![K, M]⟩ ⟨2, ![N, M]⟩) (hd : d = DotDims.plain N K M)
    (xs : FVec Ideal ⟨2, ![N, K]⟩ .f32) (w : FVec Ideal ⟨2, ![M, K]⟩ .f32)
    (hlt : FTy.bits .bf16 < FTy.bits .f32)
    (hT : (⟨2, ![M, K]⟩ : Shape).Transposes [1, 0] ⟨2, ![K, M]⟩) (p : Fin N) (row : Fin K → EReal)
    (hrow : ∀ k, xs (ix2 p k) = row k) (j : Fin M) :
    matmul d none (truncf .bf16 xs hlt) (transpose ⟨2, ![K, M]⟩ [1, 0] (truncf .bf16 w hlt) hT)
        (constant ⟨2, ![N, M]⟩ .f32 0x00000000#32) (ix2 p j) = ∑ k : Fin K, row k * w (ix2 j k) := by
  refine (matmulT_apply d hd none (truncf .bf16 xs hlt) (truncf .bf16 w hlt) hT p j).trans ?_
  exact Finset.sum_congr rfl fun k _ => congrArg₂ (· * ·) (hrow k) rfl

/-- The rectifier against the splat of the zero word. -/
theorem relu_layer {N M : ℕ} (v : FVec Ideal ⟨2, ![N, M]⟩ .f32) (p : Fin N) (row : Fin M → EReal)
    (hv : ∀ k, v (ix2 p k) = row k) (k : Fin M) :
    maximumf v (broadcast ⟨2, ![N, M]⟩ (Scalar.ofBits (F := Ideal) .f32 0x00000000#32)) (ix2 p k) = relu row k := by
  show max _ _ = _
  unfold relu
  exact congrArg (max · _) (hv k)

/-- A slice of `K` columns from column `o`. -/
theorem cols_layer {N : ℕ} (o K : ℕ) (h : o + K ≤ 8) (v0 : FVec Ideal ⟨2, ![N, 8]⟩ .f32)
    (hs : (⟨2, ![N, 8]⟩ : Shape).Slices ![0, o] ⟨2, ![N, K]⟩) (p : Fin N) (x : Fin 8 → EReal)
    (hx : ∀ k, v0 (ix2 p k) = x k) (k : Fin K) :
    extractStridedSlice ⟨2, ![N, K]⟩ ![0, o] v0 hs (ix2 p k) = cols o K h x k :=
  (slice2_axis1_apply o v0 hs p k ⟨o + k.val, by omega⟩ rfl).trans (hx _)

/-- Three blocks side by side. -/
theorem cat3_layer {N : ℕ} (a : FVec Ideal ⟨2, ![N, 16]⟩ .f32) (b : FVec Ideal ⟨2, ![N, 8]⟩ .f32) (c : FVec Ideal ⟨2, ![N, 8]⟩ .f32)
    (h : Shape.Concatenates ([(⟨⟨2, ![N, 16]⟩, a⟩ : (s : Shape) × (s.Idx → Ideal .f32)), ⟨⟨2, ![N, 8]⟩, b⟩, ⟨⟨2, ![N, 8]⟩, c⟩].map (·.1)) ⟨2, ![N, 32]⟩ 1)
    (p : Fin N) (ra : Fin 16 → EReal) (rb : Fin 8 → EReal) (rc : Fin 8 → EReal)
    (ha : ∀ k, a (ix2 p k) = ra k) (hb : ∀ k, b (ix2 p k) = rb k) (hc : ∀ k, c (ix2 p k) = rc k) (j : Fin 32) :
    concatenate ⟨2, ![N, 32]⟩ 1 [⟨⟨2, ![N, 16]⟩, a⟩, ⟨⟨2, ![N, 8]⟩, b⟩, ⟨⟨2, ![N, 8]⟩, c⟩] h (ix2 p j) = cat3 ra rb rc j := by
  rw [cat3_apply]
  unfold cat3
  split_ifs
  · exact ha _
  · exact hb _
  · exact hc _

/-- A row sum kept as a column. -/
theorem rowsum_layer {N M : ℕ} (src : FVec Ideal ⟨2, ![N, M]⟩ .f32) (acc : BitVec (FTy.bits .f32))
    (h : (⟨2, ![N, M]⟩ : Shape).Reduces [1] ⟨1, ![N]⟩) (hφ : FKind.Formats .f32) (hacc : acc = FKind.add.neutral .f32 hφ)
    (hS : (⟨1, ![N]⟩ : Shape).ShapeCasts ⟨2, ![N, 1]⟩) (p : Fin N) (row : Fin M → EReal)
    (hrow : ∀ k, src (ix2 p k) = row k) (u : Fin 1) :
    shapeCast ⟨2, ![N, 1]⟩ (multiReduction .add [1] ⟨1, ![N]⟩ src acc h hφ hacc) hS (ix2 p u) = ∑ k : Fin M, row k :=
  (column_apply _ hS p u).trans ((rowsum_apply src acc h hφ hacc p).trans (Finset.sum_congr rfl fun k _ => hrow k))

/-! ## The pieces of the body, at one row -/

section Pieces

variable (p : Fin 4096) (x : Fin 8 → EReal)

/-- Columns 5..7 of the row. -/
theorem pay2_row (v0 : FVec Ideal S4096x8 .f32) (hx : ∀ k, v0 (ix2 p k) = x k) (k : Fin 3) :
    k0_pay2 (F := Ideal) v0 (ix2 p k) = cols 5 3 (by omega) x k := by
  unfold k0_pay2
  exact cols_layer 5 3 (by omega) v0 _ p x hx k

/-- The first column group through its perceptron. -/
theorem pay3_row (v0 : FVec Ideal S4096x8 .f32) (v4 : FVec Ideal S16x3 .f32) (v9 : FVec Ideal S16 .f32)
    (v15 : FVec Ideal S16x16 .f32) (v20 : FVec Ideal S16 .f32) (hx : ∀ k, v0 (ix2 p k) = x k) (j : Fin 16) :
    k0_pay3 (F := Ideal) v0 v4 v9 v15 v20 (ix2 p j) = mlp v4 v9 v15 v20 (cols 0 3 (by omega) x) j := by
  unfold k0_pay3 mlp
  exact affine_layer (N := 4096) (K := 16) (M := 16) _ rfl _ v15 v20 _ _ _ _ p _
    (fun k => relu_layer (N := 4096) (M := 16) _ p _
      (fun k' => affine_layer (N := 4096) (K := 3) (M := 16) _ rfl _ v4 v9 _ _ _ _ p _
        (fun k'' => cols_layer 0 3 (by omega) v0 _ p x hx k'') k') k) j

end Pieces

section Pieces2

variable (p : Fin 4096) (x : Fin 8 → EReal)

/-- The second column group: its perceptron up to the last product (the offset is added by the next piece). -/
theorem pay4_row (v0 : FVec Ideal S4096x8 .f32) (v24 : FVec Ideal S8x2 .f32) (v29 : FVec Ideal S8 .f32)
    (v35 : FVec Ideal S8x8 .f32) (hx : ∀ k, v0 (ix2 p k) = x k) (j : Fin 8) :
    k0_pay4 (F := Ideal) v0 v24 v29 v35 (ix2 p j)
      = ∑ k : Fin 8, relu (affine v24 v29 (cols 3 2 (by omega) x)) k * v35 (ix2 j k) := by
  unfold k0_pay4
  exact product_layer (N := 4096) (K := 8) (M := 8) _ rfl _ v35 _ _ p _
    (fun k => relu_layer (N := 4096) (M := 8) _ p _
      (fun k' => affine_layer (N := 4096) (K := 2) (M := 8) _ rfl _ v24 v29 _ _ _ _ p _
        (fun k'' => cols_layer 3 2 (by omega) v0 _ p x hx k'') k') k) j

/-- The hidden values: the three groups' features side by side, through the combining affine layer. -/
theorem pay5_row (v3 : FVec Ideal S4096x3 .f32) (v23 : FVec Ideal S4096x16 .f32) (v39 : FVec Ideal S4096x8 .f32)
    (v40 : FVec Ideal S8 .f32) (v44 : FVec Ideal S8x3 .f32) (v49 : FVec Ideal S8 .f32) (v55 : FVec Ideal S8x8 .f32)
    (v60 : FVec Ideal S8 .f32) (v65 : FVec Ideal S64x32 .f32) (v70 : FVec Ideal S64 .f32)
    (r3 : Fin 3 → EReal) (r23 : Fin 16 → EReal) (r39 : Fin 8 → EReal)
    (h3 : ∀ k, v3 (ix2 p k) = r3 k) (h23 : ∀ k, v23 (ix2 p k) = r23 k) (h39 : ∀ k, v39 (ix2 p k) = r39 k) (j : Fin 64) :
    k0_pay5 (F := Ideal) v3 v23 v39 v40 v44 v49 v55 v60 v65 v70 (ix2 p j)
      = affine v65 v70 (cat3 r23 (fun q => r39 q + v40 (ix1 q)) (mlp v44 v49 v55 v60 r3)) j := by
  unfold k0_pay5 mlp
  exact affine_layer (N := 4096) (K := 32) (M := 64) _ rfl _ v65 v70 _ _ _ _ p _
    (fun k => cat3_layer (N := 4096) v23 _ _ _ p r23 _ _ h23
      (fun q => congrArg₂ (· + ·) (h39 q) (biasrow_apply (N := 4096) (M := 8) v40 _ _ p q))
      (fun q => affine_layer (N := 4096) (K := 8) (M := 8) _ rfl _ v55 v60 _ _ _ _ p _
        (fun k' => relu_layer (N := 4096) (M := 8) _ p _
          (fun k'' => affine_layer (N := 4096) (K := 3) (M := 8) _ rfl _ v44 v49 _ _ _ _ p _ h3 k'') k') q) k) j

end Pieces2

section Pieces3

variable (p : Fin 4096)

/-- The mean of the hidden values, as a column. -/
theorem pay6_row (v3 : FVec Ideal S4096x3 .f32) (v23 : FVec Ideal S4096x16 .f32) (v39 : FVec Ideal S4096x8 .f32)
    (v40 : FVec Ideal S8 .f32) (v44 : FVec Ideal S8x3 .f32) (v49 : FVec Ideal S8 .f32) (v55 : FVec Ideal S8x8 .f32)
    (v60 : FVec Ideal S8 .f32) (v65 : FVec Ideal S64x32 .f32) (v70 : FVec Ideal S64 .f32) (h : Fin 64 → EReal)
    (h5 : ∀ j, k0_pay5 (F := Ideal) v3 v23 v39 v40 v44 v49 v55 v60 v65 v70 (ix2 p j) = h j) (u : Fin 1) :
    k0_pay6 (F := Ideal) v3 v23 v39 v40 v44 v49 v55 v60 v65 v70 (ix2 p u) = mean64 h := by
  unfold k0_pay6 mean64
  show Ideal.div _ _ = _
  exact congrArg (Ideal.div · _) (rowsum_layer (N := 4096) (M := 64) _ _ _ _ _ _ p h h5 u)

/-- The sum of the squared distances from the mean, as a column. -/
theorem pay7_row (v3 : FVec Ideal S4096x3 .f32) (v23 : FVec Ideal S4096x16 .f32) (v39 : FVec Ideal S4096x8 .f32)
    (v40 : FVec Ideal S8 .f32) (v44 : FVec Ideal S8x3 .f32) (v49 : FVec Ideal S8 .f32) (v55 : FVec Ideal S8x8 .f32)
    (v60 : FVec Ideal S8 .f32) (v65 : FVec Ideal S64x32 .f32) (v70 : FVec Ideal S64 .f32) (h : Fin 64 → EReal)
    (h5 : ∀ j, k0_pay5 (F := Ideal) v3 v23 v39 v40 v44 v49 v55 v60 v65 v70 (ix2 p j) = h j) (u : Fin 1) :
    k0_pay7 (F := Ideal) v3 v23 v39 v40 v44 v49 v55 v60 v65 v70 (ix2 p u) = ∑ k : Fin 64, dev h k * dev h k := by
  unfold k0_pay7
  have hd : ∀ k : Fin 64, subf (k0_pay5 (F := Ideal) v3 v23 v39 v40 v44 v49 v55 v60 v65 v70)
      (broadcastTo S4096x64 (k0_pay6 (F := Ideal) v3 v23 v39 v40 v44 v49 v55 v60 v65 v70) broadcasts_S4096x1_S4096x64) (ix2 p k)
        = dev h k := fun k =>
    congrArg₂ (· - ·) (h5 k) ((spread_apply (N := 4096) (M := 64) _ _ p k).trans
      (pay6_row p v3 v23 v39 v40 v44 v49 v55 v60 v65 v70 h h5 0))
  exact rowsum_layer (N := 4096) (M := 64) _ _ _ _ _ _ p (fun k => dev h k * dev h k)
    (fun k => congrArg₂ (· * ·) (hd k) (hd k)) u

/-- The last piece: normalise, scale and shift, tanh, and the residual perceptron. -/
theorem pay1_row (v73 : FVec Ideal S4096x64 .f32) (v77 v82 : FVec Ideal S4096x1 .f32) (v92 v96 : FVec Ideal S64 .f32)
    (v101 : FVec Ideal S32x64 .f32) (v106 : FVec Ideal S32 .f32) (v112 : FVec Ideal S64x32 .f32) (v117 : FVec Ideal S64 .f32)
    (h : Fin 64 → EReal) (h73 : ∀ j, v73 (ix2 p j) = h j) (h77 : v77 (ix2 p (0 : Fin 1)) = mean64 h)
    (h82 : v82 (ix2 p (0 : Fin 1)) = ∑ k : Fin 64, dev h k * dev h k) (j : Fin 64) :
    k0_pay1 (F := Ideal) v73 v77 v82 v92 v96 v101 v106 v112 v117 (ix2 p j)
      = resid v101 v106 v112 v117 (normed v92 v96 h) j := by
  unfold k0_pay1 resid
  -- the normalised value at `(p, j)`
  have hb : ∀ q : Fin 64, tanh (addf (mulf (mulf (subf v73 (broadcastTo S4096x64 v77 broadcasts_S4096x1_S4096x64))
        (broadcastTo S4096x64 (rsqrt (addf (divf v82 (broadcast S4096x1 (Scalar.ofBits (F := Ideal) .f32 0x42800000#32)))
          (broadcast S4096x1 (Scalar.ofBits (F := Ideal) .f32 0x3727C5AC#32)))) broadcasts_S4096x1_S4096x64))
        (broadcastTo S4096x64 (shapeCast S1x64 v92 shapeCasts_S64_S1x64) broadcasts_S1x64_S4096x64))
        (broadcastTo S4096x64 (shapeCast S1x64 v96 shapeCasts_S64_S1x64) broadcasts_S1x64_S4096x64)) (ix2 p q)
      = normed v92 v96 h q := fun q => by
    show Ideal.tanh (_ * _ * _ + _) = _
    unfold normed
    refine congrArg Ideal.tanh (congrArg₂ (· + ·) (congrArg₂ (· * ·) (congrArg₂ (· * ·) ?_ ?_) ?_) ?_)
    · exact congrArg₂ (· - ·) (h73 q) ((spread_apply (N := 4096) (M := 64) v77 _ p q).trans h77)
    · refine (spread_apply (N := 4096) (M := 64) _ _ p q).trans ?_
      show Ideal.rsqrt (Ideal.div _ _ + _) = _
      unfold mean64
      exact congrArg (fun t => Ideal.rsqrt (Ideal.div t _ + _)) h82
    · exact biasrow_apply (N := 4096) (M := 64) v92 _ _ p q
    · exact biasrow_apply (N := 4096) (M := 64) v96 _ _ p q
  show _ + _ = _
  refine congrArg₂ (· + ·) (hb j) ?_
  unfold mlp
  exact affine_layer (N := 4096) (K := 32) (M := 64) _ rfl _ v112 v117 _ _ _ _ p _
    (fun k => relu_layer (N := 4096) (M := 32) _ p _
      (fun k' => affine_layer (N := 4096) (K := 64) (M := 32) _ rfl _ v101 v106 _ _ _ _ p _ hb k') k) j

end Pieces3

/-! ## The output block -/

theorem zero_offsets : (![0, 0] : Fin 2 → Nat) = fun _ => 0 := funext fun a => by fin_cases a <;> rfl
theorem zero_offset : (![0] : Fin 1 → Nat) = fun _ => 0 := funext fun a => by fin_cases a; rfl

/-- Entry `(p, j)` of what the body leaves in the output block is `rowOut` of row `p` of the input block. -/
theorem out_block_apply (x0 : FVec Ideal S4096x8 .f32) (x1 : FVec Ideal S16x3 .f32) (x2 : FVec Ideal S16 .f32) (x3 : FVec Ideal S16x16 .f32) (x4 : FVec Ideal S16 .f32) (x5 : FVec Ideal S8x2 .f32) (x6 : FVec Ideal S8 .f32) (x7 : FVec Ideal S8x8 .f32) (x8 : FVec Ideal S8 .f32) (x9 : FVec Ideal S8x3 .f32) (x10 : FVec Ideal S8 .f32) (x11 : FVec Ideal S8x8 .f32) (x12 : FVec Ideal S8 .f32) (x13 : FVec Ideal S64x32 .f32) (x14 : FVec Ideal S64 .f32) (x15 : FVec Ideal S64 .f32) (x16 : FVec Ideal S64 .f32) (x17 : FVec Ideal S32x64 .f32) (x18 : FVec Ideal S32 .f32) (x19 : FVec Ideal S64x32 .f32) (x20 : FVec Ideal S64 .f32) (p : Fin 4096) (j : Fin 64) :
    out0_21 (F := Ideal) x0 x1 x2 x3 x4 x5 x6 x7 x8 x9 x10 x11 x12 x13 x14 x15 x16 x17 x18 x19 x20 (ix2 p j)
      = rowOut (Params.mk x1 x2 x3 x4 x5 x6 x7 x8 x9 x10 x11 x12 x13 x14 x15 x16 x17 x18 x19 x20) (fun k => x0 (ix2 p k)) j := by
  unfold out0_21
  rw [View.canon_unit_zero zero_offsets]
  simp only [View.ld_unit_zero (S := S4096x8) zero_offsets, View.ld_unit_zero (S := S16x3) zero_offsets,
    View.ld_unit_zero (S := S16x16) zero_offsets, View.ld_unit_zero (S := S8x2) zero_offsets,
    View.ld_unit_zero (S := S8x8) zero_offsets, View.ld_unit_zero (S := S8x3) zero_offsets,
    View.ld_unit_zero (S := S64x32) zero_offsets, View.ld_unit_zero (S := S32x64) zero_offsets,
    View.ld_unit_zero (S := S16) zero_offset, View.ld_unit_zero (S := S8) zero_offset,
    View.ld_unit_zero (S := S64) zero_offset, View.ld_unit_zero (S := S32) zero_offset]
  have hx : ∀ k : Fin 8, x0 (ix2 p k) = (fun k => x0 (ix2 p k)) k := fun _ => rfl
  have h5 : ∀ q : Fin 64, k0_pay5 (F := Ideal) (k0_pay2 x0) (k0_pay3 x0 x1 x2 x3 x4) (k0_pay4 x0 x5 x6 x7) x8 x9 x10 x11 x12 x13 x14 (ix2 p q)
      = hid (Params.mk x1 x2 x3 x4 x5 x6 x7 x8 x9 x10 x11 x12 x13 x14 x15 x16 x17 x18 x19 x20) (fun k => x0 (ix2 p k)) q := fun q =>
    pay5_row p _ _ _ x8 x9 x10 x11 x12 x13 x14 _ _ _
      (pay2_row p _ x0 hx) (pay3_row p _ x0 x1 x2 x3 x4 hx) (pay4_row p _ x0 x5 x6 x7 hx) q
  exact pay1_row p _ _ _ x15 x16 x17 x18 x19 x20 _ h5
    (pay6_row p _ _ _ x8 x9 x10 x11 x12 x13 x14 _ h5 0) (pay7_row p _ _ _ x8 x9 x10 x11 x12 x13 x14 _ h5 0) j

end Cert.KernelIdeal.RowValue

end
-- ==== Proof.KernelArray.lean ====
/-
  The kernel's output array as one function of its arguments.

  The grid has 512 points.  Point `t` stages rows `4096·t … 4096·t + 4095` of the input array (all eight columns) and
  each of the twenty weight arrays whole.  Its body leaves in the output block, at entry `(p, j)`, the row network of
  row `p` of the staged input block, and the block is written back to rows `4096·t … 4096·t + 4095` of the output
  array (all 64 columns).  So point `t` writes block `t` of `G`; and since `512 · 4096 = 2097152` the blocks cover
  every row: row `r` belongs to point `r / 4096`.  Hence the output array ends holding `G` of the arguments.
-/
import proofs.«161402_j47193100648813_1_alg».proof.Proof.Gen.KernelIdeal.Value
import proofs.«161402_j47193100648813_1_alg».proof.Proof.KernelRow
import proofs.«161402_j47193100648813_1_alg».proof.Proof.RowSpec
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.RowNet
open Idealize.ShloMosaic.Pipeline (Dat)

variable (m : (ℓ : Loc nD τ sig) → Buf (Elt Ideal) ℓ) (ρ : Dev nD → PrngReg)

/-- The network's twenty weight and offset arrays: core `c`'s arguments 1 to 20 as launched. -/
abbrev params (c : Dev nD) : Params :=
  Params.mk (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))

/-- Row `p` of block `t` is a row of the array: `512 · 4096 = 2097152`. -/
theorem row_lt (t : Fin cfg0.N) (p : Fin 4096) : 4096 * t.val + p.val < 2097152 := by
  have ht : t.val < 512 := t.isLt
  have hp : p.val < 4096 := p.isLt
  omega

/-- The index maps of the input window and of the output window, decided over the 512 points: at point `t` both sit
    at block row `t`, block column 0. -/
theorem idx_rows : ∀ t : Fin cfg0.N, win0_0.index t (0 : Fin 2) = t.val ∧ win0_0.index t (1 : Fin 2) = 0
    ∧ win0_21.index t (0 : Fin 2) = t.val ∧ win0_21.index t (1 : Fin 2) = 0 :=
  (by decide +kernel : ∀ t : Fin grid0.N, _)

/-! ## The weight windows: every block is the whole argument -/

/-- Window 1's index map is constant 0 (decided over the 512 points). -/
theorem idx_whole1 : ∀ t : Fin cfg0.N, win0_1.index t (0 : Fin 2) = 0 ∧ win0_1.index t (1 : Fin 2) = 0 :=
  (by decide +kernel : ∀ t : Fin grid0.N, _)
/-- Window 2's index map is constant 0 (decided over the 512 points). -/
theorem idx_whole2 : ∀ t : Fin cfg0.N, win0_2.index t (0 : Fin 1) = 0 :=
  (by decide +kernel : ∀ t : Fin grid0.N, _)
/-- Window 3's index map is constant 0 (decided over the 512 points). -/
theorem idx_whole3 : ∀ t : Fin cfg0.N, win0_3.index t (0 : Fin 2) = 0 ∧ win0_3.index t (1 : Fin 2) = 0 :=
  (by decide +kernel : ∀ t : Fin grid0.N, _)
/-- Window 4's index map is constant 0 (decided over the 512 points). -/
theorem idx_whole4 : ∀ t : Fin cfg0.N, win0_4.index t (0 : Fin 1) = 0 :=
  (by decide +kernel : ∀ t : Fin grid0.N, _)
/-- Window 5's index map is constant 0 (decided over the 512 points). -/
theorem idx_whole5 : ∀ t : Fin cfg0.N, win0_5.index t (0 : Fin 2) = 0 ∧ win0_5.index t (1 : Fin 2) = 0 :=
  (by decide +kernel : ∀ t : Fin grid0.N, _)
/-- Window 6's index map is constant 0 (decided over the 512 points). -/
theorem idx_whole6 : ∀ t : Fin cfg0.N, win0_6.index t (0 : Fin 1) = 0 :=
  (by decide +kernel : ∀ t : Fin grid0.N, _)
/-- Window 7's index map is constant 0 (decided over the 512 points). -/
theorem idx_whole7 : ∀ t : Fin cfg0.N, win0_7.index t (0 : Fin 2) = 0 ∧ win0_7.index t (1 : Fin 2) = 0 :=
  (by decide +kernel : ∀ t : Fin grid0.N, _)
/-- Window 8's index map is constant 0 (decided over the 512 points). -/
theorem idx_whole8 : ∀ t : Fin cfg0.N, win0_8.index t (0 : Fin 1) = 0 :=
  (by decide +kernel : ∀ t : Fin grid0.N, _)
/-- Window 9's index map is constant 0 (decided over the 512 points). -/
theorem idx_whole9 : ∀ t : Fin cfg0.N, win0_9.index t (0 : Fin 2) = 0 ∧ win0_9.index t (1 : Fin 2) = 0 :=
  (by decide +kernel : ∀ t : Fin grid0.N, _)
/-- Window 10's index map is constant 0 (decided over the 512 points). -/
theorem idx_whole10 : ∀ t : Fin cfg0.N, win0_10.index t (0 : Fin 1) = 0 :=
  (by decide +kernel : ∀ t : Fin grid0.N, _)
/-- Window 11's index map is constant 0 (decided over the 512 points). -/
theorem idx_whole11 : ∀ t : Fin cfg0.N, win0_11.index t (0 : Fin 2) = 0 ∧ win0_11.index t (1 : Fin 2) = 0 :=
  (by decide +kernel : ∀ t : Fin grid0.N, _)
/-- Window 12's index map is constant 0 (decided over the 512 points). -/
theorem idx_whole12 : ∀ t : Fin cfg0.N, win0_12.index t (0 : Fin 1) = 0 :=
  (by decide +kernel : ∀ t : Fin grid0.N, _)
/-- Window 13's index map is constant 0 (decided over the 512 points). -/
theorem idx_whole13 : ∀ t : Fin cfg0.N, win0_13.index t (0 : Fin 2) = 0 ∧ win0_13.index t (1 : Fin 2) = 0 :=
  (by decide +kernel : ∀ t : Fin grid0.N, _)
/-- Window 14's index map is constant 0 (decided over the 512 points). -/
theorem idx_whole14 : ∀ t : Fin cfg0.N, win0_14.index t (0 : Fin 1) = 0 :=
  (by decide +kernel : ∀ t : Fin grid0.N, _)
/-- Window 15's index map is constant 0 (decided over the 512 points). -/
theorem idx_whole15 : ∀ t : Fin cfg0.N, win0_15.index t (0 : Fin 1) = 0 :=
  (by decide +kernel : ∀ t : Fin grid0.N, _)
/-- Window 16's index map is constant 0 (decided over the 512 points). -/
theorem idx_whole16 : ∀ t : Fin cfg0.N, win0_16.index t (0 : Fin 1) = 0 :=
  (by decide +kernel : ∀ t : Fin grid0.N, _)
/-- Window 17's index map is constant 0 (decided over the 512 points). -/
theorem idx_whole17 : ∀ t : Fin cfg0.N, win0_17.index t (0 : Fin 2) = 0 ∧ win0_17.index t (1 : Fin 2) = 0 :=
  (by decide +kernel : ∀ t : Fin grid0.N, _)
/-- Window 18's index map is constant 0 (decided over the 512 points). -/
theorem idx_whole18 : ∀ t : Fin cfg0.N, win0_18.index t (0 : Fin 1) = 0 :=
  (by decide +kernel : ∀ t : Fin grid0.N, _)
/-- Window 19's index map is constant 0 (decided over the 512 points). -/
theorem idx_whole19 : ∀ t : Fin cfg0.N, win0_19.index t (0 : Fin 2) = 0 ∧ win0_19.index t (1 : Fin 2) = 0 :=
  (by decide +kernel : ∀ t : Fin grid0.N, _)
/-- Window 20's index map is constant 0 (decided over the 512 points). -/
theorem idx_whole20 : ∀ t : Fin cfg0.N, win0_20.index t (0 : Fin 1) = 0 :=
  (by decide +kernel : ∀ t : Fin grid0.N, _)

/-- Window 1's block at any point is the whole of argument 1. -/
theorem whole1 (c : Dev nD) (t : Fin cfg0.N) :
    (iblk m c 1 t : Vec Ideal S16x3 .f32) = m ((c : Thread nD τ).loc main_arg1) := by
  funext x
  unfold iblk
  rw [View.read_apply]
  show V m c main_arg1 _ = m (c.tc.loc main_arg1) _
  congr 1
  funext a
  apply Fin.ext
  match a with
  | ⟨0, _⟩ => show win0_1.index t (0 : Fin 2) * 16 + 1 * (x 0).val = (x 0).val; rw [(idx_whole1 t).1]; omega
  | ⟨1, _⟩ => show win0_1.index t (1 : Fin 2) * 3 + 1 * (x 1).val = (x 1).val; rw [(idx_whole1 t).2]; omega

/-- Window 2's block at any point is the whole of argument 2. -/
theorem whole2 (c : Dev nD) (t : Fin cfg0.N) :
    (iblk m c 2 t : Vec Ideal S16 .f32) = m ((c : Thread nD τ).loc main_arg2) := by
  funext x
  unfold iblk
  rw [View.read_apply]
  show V m c main_arg2 _ = m (c.tc.loc main_arg2) _
  congr 1
  funext a
  apply Fin.ext
  match a with
  | ⟨0, _⟩ => show win0_2.index t (0 : Fin 1) * 16 + 1 * (x 0).val = (x 0).val; rw [idx_whole2 t]; omega

/-- Window 3's block at any point is the whole of argument 3. -/
theorem whole3 (c : Dev nD) (t : Fin cfg0.N) :
    (iblk m c 3 t : Vec Ideal S16x16 .f32) = m ((c : Thread nD τ).loc main_arg3) := by
  funext x
  unfold iblk
  rw [View.read_apply]
  show V m c main_arg3 _ = m (c.tc.loc main_arg3) _
  congr 1
  funext a
  apply Fin.ext
  match a with
  | ⟨0, _⟩ => show win0_3.index t (0 : Fin 2) * 16 + 1 * (x 0).val = (x 0).val; rw [(idx_whole3 t).1]; omega
  | ⟨1, _⟩ => show win0_3.index t (1 : Fin 2) * 16 + 1 * (x 1).val = (x 1).val; rw [(idx_whole3 t).2]; omega

/-- Window 4's block at any point is the whole of argument 4. -/
theorem whole4 (c : Dev nD) (t : Fin cfg0.N) :
    (iblk m c 4 t : Vec Ideal S16 .f32) = m ((c : Thread nD τ).loc main_arg4) := by
  funext x
  unfold iblk
  rw [View.read_apply]
  show V m c main_arg4 _ = m (c.tc.loc main_arg4) _
  congr 1
  funext a
  apply Fin.ext
  match a with
  | ⟨0, _⟩ => show win0_4.index t (0 : Fin 1) * 16 + 1 * (x 0).val = (x 0).val; rw [idx_whole4 t]; omega

/-- Window 5's block at any point is the whole of argument 5. -/
theorem whole5 (c : Dev nD) (t : Fin cfg0.N) :
    (iblk m c 5 t : Vec Ideal S8x2 .f32) = m ((c : Thread nD τ).loc main_arg5) := by
  funext x
  unfold iblk
  rw [View.read_apply]
  show V m c main_arg5 _ = m (c.tc.loc main_arg5) _
  congr 1
  funext a
  apply Fin.ext
  match a with
  | ⟨0, _⟩ => show win0_5.index t (0 : Fin 2) * 8 + 1 * (x 0).val = (x 0).val; rw [(idx_whole5 t).1]; omega
  | ⟨1, _⟩ => show win0_5.index t (1 : Fin 2) * 2 + 1 * (x 1).val = (x 1).val; rw [(idx_whole5 t).2]; omega

/-- Window 6's block at any point is the whole of argument 6. -/
theorem whole6 (c : Dev nD) (t : Fin cfg0.N) :
    (iblk m c 6 t : Vec Ideal S8 .f32) = m ((c : Thread nD τ).loc main_arg6) := by
  funext x
  unfold iblk
  rw [View.read_apply]
  show V m c main_arg6 _ = m (c.tc.loc main_arg6) _
  congr 1
  funext a
  apply Fin.ext
  match a with
  | ⟨0, _⟩ => show win0_6.index t (0 : Fin 1) * 8 + 1 * (x 0).val = (x 0).val; rw [idx_whole6 t]; omega

/-- Window 7's block at any point is the whole of argument 7. -/
theorem whole7 (c : Dev nD) (t : Fin cfg0.N) :
    (iblk m c 7 t : Vec Ideal S8x8 .f32) = m ((c : Thread nD τ).loc main_arg7) := by
  funext x
  unfold iblk
  rw [View.read_apply]
  show V m c main_arg7 _ = m (c.tc.loc main_arg7) _
  congr 1
  funext a
  apply Fin.ext
  match a with
  | ⟨0, _⟩ => show win0_7.index t (0 : Fin 2) * 8 + 1 * (x 0).val = (x 0).val; rw [(idx_whole7 t).1]; omega
  | ⟨1, _⟩ => show win0_7.index t (1 : Fin 2) * 8 + 1 * (x 1).val = (x 1).val; rw [(idx_whole7 t).2]; omega

/-- Window 8's block at any point is the whole of argument 8. -/
theorem whole8 (c : Dev nD) (t : Fin cfg0.N) :
    (iblk m c 8 t : Vec Ideal S8 .f32) = m ((c : Thread nD τ).loc main_arg8) := by
  funext x
  unfold iblk
  rw [View.read_apply]
  show V m c main_arg8 _ = m (c.tc.loc main_arg8) _
  congr 1
  funext a
  apply Fin.ext
  match a with
  | ⟨0, _⟩ => show win0_8.index t (0 : Fin 1) * 8 + 1 * (x 0).val = (x 0).val; rw [idx_whole8 t]; omega

/-- Window 9's block at any point is the whole of argument 9. -/
theorem whole9 (c : Dev nD) (t : Fin cfg0.N) :
    (iblk m c 9 t : Vec Ideal S8x3 .f32) = m ((c : Thread nD τ).loc main_arg9) := by
  funext x
  unfold iblk
  rw [View.read_apply]
  show V m c main_arg9 _ = m (c.tc.loc main_arg9) _
  congr 1
  funext a
  apply Fin.ext
  match a with
  | ⟨0, _⟩ => show win0_9.index t (0 : Fin 2) * 8 + 1 * (x 0).val = (x 0).val; rw [(idx_whole9 t).1]; omega
  | ⟨1, _⟩ => show win0_9.index t (1 : Fin 2) * 3 + 1 * (x 1).val = (x 1).val; rw [(idx_whole9 t).2]; omega

/-- Window 10's block at any point is the whole of argument 10. -/
theorem whole10 (c : Dev nD) (t : Fin cfg0.N) :
    (iblk m c 10 t : Vec Ideal S8 .f32) = m ((c : Thread nD τ).loc main_arg10) := by
  funext x
  unfold iblk
  rw [View.read_apply]
  show V m c main_arg10 _ = m (c.tc.loc main_arg10) _
  congr 1
  funext a
  apply Fin.ext
  match a with
  | ⟨0, _⟩ => show win0_10.index t (0 : Fin 1) * 8 + 1 * (x 0).val = (x 0).val; rw [idx_whole10 t]; omega

/-- Window 11's block at any point is the whole of argument 11. -/
theorem whole11 (c : Dev nD) (t : Fin cfg0.N) :
    (iblk m c 11 t : Vec Ideal S8x8 .f32) = m ((c : Thread nD τ).loc main_arg11) := by
  funext x
  unfold iblk
  rw [View.read_apply]
  show V m c main_arg11 _ = m (c.tc.loc main_arg11) _
  congr 1
  funext a
  apply Fin.ext
  match a with
  | ⟨0, _⟩ => show win0_11.index t (0 : Fin 2) * 8 + 1 * (x 0).val = (x 0).val; rw [(idx_whole11 t).1]; omega
  | ⟨1, _⟩ => show win0_11.index t (1 : Fin 2) * 8 + 1 * (x 1).val = (x 1).val; rw [(idx_whole11 t).2]; omega

/-- Window 12's block at any point is the whole of argument 12. -/
theorem whole12 (c : Dev nD) (t : Fin cfg0.N) :
    (iblk m c 12 t : Vec Ideal S8 .f32) = m ((c : Thread nD τ).loc main_arg12) := by
  funext x
  unfold iblk
  rw [View.read_apply]
  show V m c main_arg12 _ = m (c.tc.loc main_arg12) _
  congr 1
  funext a
  apply Fin.ext
  match a with
  | ⟨0, _⟩ => show win0_12.index t (0 : Fin 1) * 8 + 1 * (x 0).val = (x 0).val; rw [idx_whole12 t]; omega

/-- Window 13's block at any point is the whole of argument 13. -/
theorem whole13 (c : Dev nD) (t : Fin cfg0.N) :
    (iblk m c 13 t : Vec Ideal S64x32 .f32) = m ((c : Thread nD τ).loc main_arg13) := by
  funext x
  unfold iblk
  rw [View.read_apply]
  show V m c main_arg13 _ = m (c.tc.loc main_arg13) _
  congr 1
  funext a
  apply Fin.ext
  match a with
  | ⟨0, _⟩ => show win0_13.index t (0 : Fin 2) * 64 + 1 * (x 0).val = (x 0).val; rw [(idx_whole13 t).1]; omega
  | ⟨1, _⟩ => show win0_13.index t (1 : Fin 2) * 32 + 1 * (x 1).val = (x 1).val; rw [(idx_whole13 t).2]; omega

/-- Window 14's block at any point is the whole of argument 14. -/
theorem whole14 (c : Dev nD) (t : Fin cfg0.N) :
    (iblk m c 14 t : Vec Ideal S64 .f32) = m ((c : Thread nD τ).loc main_arg14) := by
  funext x
  unfold iblk
  rw [View.read_apply]
  show V m c main_arg14 _ = m (c.tc.loc main_arg14) _
  congr 1
  funext a
  apply Fin.ext
  match a with
  | ⟨0, _⟩ => show win0_14.index t (0 : Fin 1) * 64 + 1 * (x 0).val = (x 0).val; rw [idx_whole14 t]; omega

/-- Window 15's block at any point is the whole of argument 15. -/
theorem whole15 (c : Dev nD) (t : Fin cfg0.N) :
    (iblk m c 15 t : Vec Ideal S64 .f32) = m ((c : Thread nD τ).loc main_arg15) := by
  funext x
  unfold iblk
  rw [View.read_apply]
  show V m c main_arg15 _ = m (c.tc.loc main_arg15) _
  congr 1
  funext a
  apply Fin.ext
  match a with
  | ⟨0, _⟩ => show win0_15.index t (0 : Fin 1) * 64 + 1 * (x 0).val = (x 0).val; rw [idx_whole15 t]; omega

/-- Window 16's block at any point is the whole of argument 16. -/
theorem whole16 (c : Dev nD) (t : Fin cfg0.N) :
    (iblk m c 16 t : Vec Ideal S64 .f32) = m ((c : Thread nD τ).loc main_arg16) := by
  funext x
  unfold iblk
  rw [View.read_apply]
  show V m c main_arg16 _ = m (c.tc.loc main_arg16) _
  congr 1
  funext a
  apply Fin.ext
  match a with
  | ⟨0, _⟩ => show win0_16.index t (0 : Fin 1) * 64 + 1 * (x 0).val = (x 0).val; rw [idx_whole16 t]; omega

/-- Window 17's block at any point is the whole of argument 17. -/
theorem whole17 (c : Dev nD) (t : Fin cfg0.N) :
    (iblk m c 17 t : Vec Ideal S32x64 .f32) = m ((c : Thread nD τ).loc main_arg17) := by
  funext x
  unfold iblk
  rw [View.read_apply]
  show V m c main_arg17 _ = m (c.tc.loc main_arg17) _
  congr 1
  funext a
  apply Fin.ext
  match a with
  | ⟨0, _⟩ => show win0_17.index t (0 : Fin 2) * 32 + 1 * (x 0).val = (x 0).val; rw [(idx_whole17 t).1]; omega
  | ⟨1, _⟩ => show win0_17.index t (1 : Fin 2) * 64 + 1 * (x 1).val = (x 1).val; rw [(idx_whole17 t).2]; omega

/-- Window 18's block at any point is the whole of argument 18. -/
theorem whole18 (c : Dev nD) (t : Fin cfg0.N) :
    (iblk m c 18 t : Vec Ideal S32 .f32) = m ((c : Thread nD τ).loc main_arg18) := by
  funext x
  unfold iblk
  rw [View.read_apply]
  show V m c main_arg18 _ = m (c.tc.loc main_arg18) _
  congr 1
  funext a
  apply Fin.ext
  match a with
  | ⟨0, _⟩ => show win0_18.index t (0 : Fin 1) * 32 + 1 * (x 0).val = (x 0).val; rw [idx_whole18 t]; omega

/-- Window 19's block at any point is the whole of argument 19. -/
theorem whole19 (c : Dev nD) (t : Fin cfg0.N) :
    (iblk m c 19 t : Vec Ideal S64x32 .f32) = m ((c : Thread nD τ).loc main_arg19) := by
  funext x
  unfold iblk
  rw [View.read_apply]
  show V m c main_arg19 _ = m (c.tc.loc main_arg19) _
  congr 1
  funext a
  apply Fin.ext
  match a with
  | ⟨0, _⟩ => show win0_19.index t (0 : Fin 2) * 64 + 1 * (x 0).val = (x 0).val; rw [(idx_whole19 t).1]; omega
  | ⟨1, _⟩ => show win0_19.index t (1 : Fin 2) * 32 + 1 * (x 1).val = (x 1).val; rw [(idx_whole19 t).2]; omega

/-- Window 20's block at any point is the whole of argument 20. -/
theorem whole20 (c : Dev nD) (t : Fin cfg0.N) :
    (iblk m c 20 t : Vec Ideal S64 .f32) = m ((c : Thread nD τ).loc main_arg20) := by
  funext x
  unfold iblk
  rw [View.read_apply]
  show V m c main_arg20 _ = m (c.tc.loc main_arg20) _
  congr 1
  funext a
  apply Fin.ext
  match a with
  | ⟨0, _⟩ => show win0_20.index t (0 : Fin 1) * 64 + 1 * (x 0).val = (x 0).val; rw [idx_whole20 t]; omega

/-! ## What a point reads and writes -/

/-- The input window's block at point `t` is rows `4096·t … 4096·t + 4095` of argument 0: its entry `(p, k)` is the
    array's entry `(4096·t + p, k)`. -/
theorem in_block_apply (c : Dev nD) (t : Fin cfg0.N) (p : Fin 4096) (k : Fin 8) :
    (iblk m c 0 t : Vec Ideal S4096x8 .f32) (ix2 p k)
      = (m ((c : Thread nD τ).loc main_arg0) : FVec Ideal S2097152x8 .f32) (ix2 ⟨4096 * t.val + p.val, row_lt t p⟩ k) := by
  obtain ⟨e0, e1, -, -⟩ := idx_rows t
  unfold iblk
  rw [View.read_apply]
  show V m c main_arg0 _ = m (c.tc.loc main_arg0) _
  congr 1
  funext a
  apply Fin.ext
  match a with
  | ⟨0, _⟩ => show win0_0.index t (0 : Fin 2) * 4096 + 1 * p.val = 4096 * t.val + p.val; rw [e0]; omega
  | ⟨1, _⟩ => show win0_0.index t (1 : Fin 2) * 8 + 1 * k.val = k.val; rw [e1]; omega

/-- The weight windows' blocks at any point are the network's parameters. -/
theorem weights_eq (c : Dev nD) (t : Fin cfg0.N) :
    Params.mk (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) = params m c := by
  rw [whole1 m c t, whole2 m c t, whole3 m c t, whole4 m c t, whole5 m c t, whole6 m c t, whole7 m c t, whole8 m c t, whole9 m c t, whole10 m c t, whole11 m c t, whole12 m c t, whole13 m c t, whole14 m c t, whole15 m c t, whole16 m c t, whole17 m c t, whole18 m c t, whole19 m c t, whole20 m c t]

/-- Entry `(p, j)` of what point `t`'s body leaves in the output block is entry `(4096·t + p, j)` of `G`. -/
theorem out_at (c : Dev nD) (t : Fin cfg0.N) (p : Fin 4096) (j : Fin 64) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p j)
      = G (params m c) (m ((c : Thread nD τ).loc main_arg0)) (ix2 ⟨4096 * t.val + p.val, row_lt t p⟩ j) := by
  refine (RowValue.out_block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p j).trans ?_
  rw [G_apply, weights_eq m c t]
  congr 1
  funext k
  exact in_block_apply m c t p k

/-- WHAT POINT `t` WRITES BACK is block `t` of `G` of the arguments: entry `(p, j)` of the block the body leaves is
    the row network of row `4096·t + p` of the input, and the write-back's rectangle puts it at `(4096·t + p, j)`. -/
theorem flushed_eq (c : Dev nD) (t : Fin cfg0.N) :
    (dats m 0 c).flushed 21 t
      = ((cfg0.win 21).blk t).view.read (Elt Ideal) (G (params m c) (m ((c : Thread nD τ).loc main_arg0))) := by
  rw [Value.flushed21]
  obtain ⟨-, -, e0, e1⟩ := idx_rows t
  funext y
  rw [View.read_apply]
  show out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = G (params m c) (m ((c : Thread nD τ).loc main_arg0)) (((cfg0.win 21).blk t).view.emb y)
  have hy : (y : S4096x64.Idx) = ix2 (y 0) (y 1) := eq_ix2 y
  have he : (((cfg0.win 21).blk t).view.emb y : S2097152x64.Idx)
      = ix2 ⟨4096 * t.val + (y 0).val, row_lt t (y 0)⟩ (y 1) := by
    funext a
    apply Fin.ext
    match a with
    | ⟨0, _⟩ => show win0_21.index t (0 : Fin 2) * 4096 + 1 * (y 0).val = 4096 * t.val + (y 0).val; rw [e0]; omega
    | ⟨1, _⟩ => show win0_21.index t (1 : Fin 2) * 64 + 1 * (y 1).val = (y 1).val; rw [e1]; omega
  rw [he]
  exact (congrArg (out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) hy).trans (out_at m c t (y 0) (y 1))

/-- An index of the output array is in point `t`'s block iff each coordinate is in the block's range on its axis. -/
theorem mem_blk (t : Fin cfg0.N) (i : S2097152x64.Idx) :
    i ∈ ((cfg0.win 21).blk t).view.set ↔ ∀ a : Fin 2, win0_21.index t a * S4096x64.size a ≤ (i a).val
      ∧ (i a).val < win0_21.index t a * S4096x64.size a + S4096x64.size a := by
  show i ∈ ((View.whole main_v0).slice (win0_21.rect t)).set ↔ _
  rw [View.set_slice_whole, Rect.mem_set_unit]
  exact Iff.rfl

/-- THE BLOCKS COVER THE ARRAY: row `r` is in the block of point `r / 4096`, which is one of the 512 points
    because `r < 2097152 = 512 · 4096`; every block spans all 64 columns. -/
theorem cover (i : S2097152x64.Idx) :
    ∃ t : Fin cfg0.N, (cfg0.win 21).flush t = true ∧ i ∈ ((cfg0.win 21).blk t).view.set := by
  have hi0 : (i 0).val < 2097152 := (i 0).isLt
  have hi1 : (i 1).val < 64 := (i 1).isLt
  have ht : (i 0).val / 4096 < cfg0.N := by show (i 0).val / 4096 < 512; omega
  obtain ⟨-, -, e0, e1⟩ := idx_rows ⟨(i 0).val / 4096, ht⟩
  have e0' : win0_21.index ⟨(i 0).val / 4096, ht⟩ (0 : Fin 2) = (i 0).val / 4096 := e0
  refine ⟨⟨(i 0).val / 4096, ht⟩, flush0_21 _, ?_⟩
  rw [mem_blk]
  intro a
  match a with
  | ⟨0, _⟩ =>
    show win0_21.index ⟨(i 0).val / 4096, ht⟩ (0 : Fin 2) * 4096 ≤ (i 0).val
      ∧ (i 0).val < win0_21.index ⟨(i 0).val / 4096, ht⟩ (0 : Fin 2) * 4096 + 4096
    rw [e0']; omega
  | ⟨1, _⟩ =>
    show win0_21.index ⟨(i 0).val / 4096, ht⟩ (1 : Fin 2) * 64 ≤ (i 1).val
      ∧ (i 1).val < win0_21.index ⟨(i 0).val / 4096, ht⟩ (1 : Fin 2) * 64 + 64
    rw [e1]; omega

/-- THE OUTPUT ARRAY after the run is `G` of the arguments: every point writes its block of `G`, and the blocks cover
    the array. -/
theorem final (c : Dev nD) :
    (dats m 0 c).arrAt 21 cfg0.N = G (params m c) (m ((c : Thread nD τ).loc main_arg0)) :=
  (dats m 0 c).arrAt_eq_of_cover 21 (G (params m c) (m ((c : Thread nD τ).loc main_arg0)))
    (fun t _ => flushed_eq m c t) cover

/-- The kernel's run, read: the result array holds the row network of every row of argument 0, and the arguments are
    unchanged. -/
theorem run : θ_run defs (onTc (τ := τ) (main (F := Ideal))) ⟨m, fun _ => 0, ρ⟩ fun r => ∀ c : Dev nD,
      r.2.mem ((c : Thread nD τ).loc main_v0) = G (params m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelIdeal.ArrayValue

end
-- ==== Proof.LibHostRowOps.lean ====
/-
  Indices of small shapes, identified from their coordinates.

  An index of a shape of rank two is the pair of its two coordinates, and an index of a shape of rank one is its one
  coordinate.  So an index function, however it is written, equals the pair (or the single coordinate) as soon as
  its coordinates are known as natural numbers.  These two statements turn every "the operand is read at this
  index" step into a comparison of numbers.
-/
import Idealize.ShloMosaic.Lib.ValueIdx

namespace Cert.HostRowOps

open Idealize.ShloMosaic Idealize.ShloMosaic.ValueIdx

/-- A rank-two index whose coordinates are the numbers of `a` and `b` is the pair `(a, b)`. -/
theorem eq_ix2_of_val {n0 n1 : Nat} (f : (⟨2, ![n0, n1]⟩ : Shape).Idx) (a : Fin n0) (b : Fin n1)
    (h0 : (f 0).val = a.val) (h1 : (f 1).val = b.val) : f = ix2 a b :=
  funext fun d => match d with
    | ⟨0, _⟩ => Fin.ext h0
    | ⟨1, _⟩ => Fin.ext h1

/-- A rank-one index whose coordinate is the number of `a` is `a`. -/
theorem eq_ix1_of_val {n : Nat} (f : (⟨1, ![n]⟩ : Shape).Idx) (a : Fin n) (h0 : (f 0).val = a.val) : f = ix1 a :=
  funext fun d => match d with
    | ⟨0, _⟩ => Fin.ext h0

/-- A function of a rank-two index, read at an index whose coordinates are the numbers of `a` and `b`. -/
theorem apply_ix2_of_val {α : Type} {n0 n1 : Nat} (x : (⟨2, ![n0, n1]⟩ : Shape).Idx → α) (f : (⟨2, ![n0, n1]⟩ : Shape).Idx)
    (a : Fin n0) (b : Fin n1) (h0 : (f 0).val = a.val) (h1 : (f 1).val = b.val) : x f = x (ix2 a b) :=
  congrArg x (eq_ix2_of_val f a b h0 h1)

/-- A function of a rank-one index, read at an index whose coordinate is the number of `a`. -/
theorem apply_ix1_of_val {α : Type} {n : Nat} (x : (⟨1, ![n]⟩ : Shape).Idx → α) (f : (⟨1, ![n]⟩ : Shape).Idx)
    (a : Fin n) (h0 : (f 0).val = a.val) : x f = x (ix1 a) :=
  congrArg x (eq_ix1_of_val f a h0)

end Cert.HostRowOps
-- ==== Proof.ReferenceRow.lean ====
/-
  The reference's result array, read at an entry, is the row network of the matching row of the input array.
-/
import proofs.«161402_j47193100648813_1_alg».proof.Proof.Gen.ReferenceIdeal.Read
import proofs.«161402_j47193100648813_1_alg».proof.Proof.RowSpec
import proofs.«161402_j47193100648813_1_alg».proof.Proof.LibRowOps
import proofs.«161402_j47193100648813_1_alg».proof.Proof.LibHostRowOps

noncomputable section

namespace Cert.ReferenceIdeal.RowValue

open Cert.ReferenceIdeal Cert.ReferenceIdeal.Gen Idealize.ShloMosaic Idealize.ShloMosaic.ValueIdx Cert.RowNet

open Cert.ReferenceIdeal.Read Cert.HostRowOps
open scoped BigOperators

/-! ## The reference, layer by layer

  Every statement below reads one named intermediate array of the reference at the entry `(r, q)` and says which
  function of row `r` of the input array stands there.  Each is proved from the one before: the operation's own
  reading at an index, then the identification of the indices at which its operands are read. -/

section Layers

variable (x0 : Vec Ideal S2097152x8 .f32) (x1 : Vec Ideal S16x3 .f32) (x2 : Vec Ideal S16 .f32) (x3 : Vec Ideal S16x16 .f32) (x4 : Vec Ideal S16 .f32) (x5 : Vec Ideal S8x2 .f32) (x6 : Vec Ideal S8 .f32) (x7 : Vec Ideal S8x8 .f32) (x8 : Vec Ideal S8 .f32) (x9 : Vec Ideal S8x3 .f32) (x10 : Vec Ideal S8 .f32) (x11 : Vec Ideal S8x8 .f32) (x12 : Vec Ideal S8 .f32) (x13 : Vec Ideal S64x32 .f32) (x14 : Vec Ideal S64 .f32) (x15 : Vec Ideal S64 .f32) (x16 : Vec Ideal S64 .f32) (x17 : Vec Ideal S32x64 .f32) (x18 : Vec Ideal S32 .f32) (x19 : Vec Ideal S64x32 .f32) (x20 : Vec Ideal S64 .f32)

/-! ### The first perceptron: columns 0..2, sixteen hidden values, sixteen results -/

/-- The first affine map of this perceptron, read at an entry. -/
theorem v7_at (r : Fin 2097152) (k : Fin 16) :
    val_main_v7 (F := Ideal) x0 x1 x2 (ix2 r k) = affine x1 x2 (cols 0 3 (by omega) (fun m => x0 (ix2 r m))) k := by
  rw [val_main_v7_apply, val_main_v4_apply, val_main_v6_apply, val_main_v5_apply]
  refine congrArg₂ (· + ·) (Finset.sum_congr rfl fun m _ => ?_) (apply_ix1_of_val x2 _ k rfl)
  rw [val_main_v0_apply, val_main_v3_apply]
  exact congrArg₂ (· * ·) (apply_ix2_of_val x0 _ r ⟨0 + m.val, by omega⟩ rfl (Nat.zero_add _).symm)
    (apply_ix2_of_val x1 _ k m rfl rfl)

/-- The rectified first layer, read at an entry. -/
theorem v8_at (r : Fin 2097152) (k : Fin 16) :
    val_main_v8 (F := Ideal) x0 x1 x2 (ix2 r k) = relu (affine x1 x2 (cols 0 3 (by omega) (fun m => x0 (ix2 r m)))) k := by
  rw [val_main_v8_apply, val_main_call0_v0_apply, val_main_call0_cst_apply, v7_at]
  rfl

/-- The perceptron's result, read at an entry. -/
theorem v13_at (r : Fin 2097152) (q : Fin 16) :
    val_main_v13 (F := Ideal) x0 x1 x2 x3 x4 (ix2 r q) = mlp x1 x2 x3 x4 (cols 0 3 (by omega) (fun m => x0 (ix2 r m))) q := by
  rw [val_main_v13_apply, val_main_v10_apply, val_main_v12_apply, val_main_v11_apply]
  refine congrArg₂ (· + ·) (Finset.sum_congr rfl fun k _ => ?_) (apply_ix1_of_val x4 _ q rfl)
  rw [val_main_v9_apply]
  exact congrArg₂ (· * ·) ((apply_ix2_of_val (val_main_v8 (F := Ideal) x0 x1 x2) _ r k rfl rfl).trans (v8_at x0 x1 x2 r k))
    (apply_ix2_of_val x3 _ q k rfl rfl)

/-! ### The second perceptron: columns 3..4, eight hidden values, eight results -/

/-- The first affine map of this perceptron, read at an entry. -/
theorem v18_at (r : Fin 2097152) (k : Fin 8) :
    val_main_v18 (F := Ideal) x0 x5 x6 (ix2 r k) = affine x5 x6 (cols 3 2 (by omega) (fun m => x0 (ix2 r m))) k := by
  rw [val_main_v18_apply, val_main_v15_apply, val_main_v17_apply, val_main_v16_apply]
  refine congrArg₂ (· + ·) (Finset.sum_congr rfl fun m _ => ?_) (apply_ix1_of_val x6 _ k rfl)
  rw [val_main_v1_apply, val_main_v14_apply]
  exact congrArg₂ (· * ·) (apply_ix2_of_val x0 _ r ⟨3 + m.val, by omega⟩ rfl rfl)
    (apply_ix2_of_val x5 _ k m rfl rfl)

/-- The rectified first layer, read at an entry. -/
theorem v19_at (r : Fin 2097152) (k : Fin 8) :
    val_main_v19 (F := Ideal) x0 x5 x6 (ix2 r k) = relu (affine x5 x6 (cols 3 2 (by omega) (fun m => x0 (ix2 r m)))) k := by
  rw [val_main_v19_apply, val_main_call1_v0_apply, val_main_call1_cst_apply, v18_at]
  rfl

/-- The perceptron's result, read at an entry. -/
theorem v24_at (r : Fin 2097152) (q : Fin 8) :
    val_main_v24 (F := Ideal) x0 x5 x6 x7 x8 (ix2 r q) = mlp x5 x6 x7 x8 (cols 3 2 (by omega) (fun m => x0 (ix2 r m))) q := by
  rw [val_main_v24_apply, val_main_v21_apply, val_main_v23_apply, val_main_v22_apply]
  refine congrArg₂ (· + ·) (Finset.sum_congr rfl fun k _ => ?_) (apply_ix1_of_val x8 _ q rfl)
  rw [val_main_v20_apply]
  exact congrArg₂ (· * ·) ((apply_ix2_of_val (val_main_v19 (F := Ideal) x0 x5 x6) _ r k rfl rfl).trans (v19_at x0 x5 x6 r k))
    (apply_ix2_of_val x7 _ q k rfl rfl)

/-! ### The third perceptron: columns 5..7, eight hidden values, eight results -/

/-- The first affine map of this perceptron, read at an entry. -/
theorem v29_at (r : Fin 2097152) (k : Fin 8) :
    val_main_v29 (F := Ideal) x0 x9 x10 (ix2 r k) = affine x9 x10 (cols 5 3 (by omega) (fun m => x0 (ix2 r m))) k := by
  rw [val_main_v29_apply, val_main_v26_apply, val_main_v28_apply, val_main_v27_apply]
  refine congrArg₂ (· + ·) (Finset.sum_congr rfl fun m _ => ?_) (apply_ix1_of_val x10 _ k rfl)
  rw [val_main_v2_apply, val_main_v25_apply]
  exact congrArg₂ (· * ·) (apply_ix2_of_val x0 _ r ⟨5 + m.val, by omega⟩ rfl rfl)
    (apply_ix2_of_val x9 _ k m rfl rfl)

/-- The rectified first layer, read at an entry. -/
theorem v30_at (r : Fin 2097152) (k : Fin 8) :
    val_main_v30 (F := Ideal) x0 x9 x10 (ix2 r k) = relu (affine x9 x10 (cols 5 3 (by omega) (fun m => x0 (ix2 r m)))) k := by
  rw [val_main_v30_apply, val_main_call2_v0_apply, val_main_call2_cst_apply, v29_at]
  rfl

/-- The perceptron's result, read at an entry. -/
theorem v35_at (r : Fin 2097152) (q : Fin 8) :
    val_main_v35 (F := Ideal) x0 x9 x10 x11 x12 (ix2 r q) = mlp x9 x10 x11 x12 (cols 5 3 (by omega) (fun m => x0 (ix2 r m))) q := by
  rw [val_main_v35_apply, val_main_v32_apply, val_main_v34_apply, val_main_v33_apply]
  refine congrArg₂ (· + ·) (Finset.sum_congr rfl fun k _ => ?_) (apply_ix1_of_val x12 _ q rfl)
  rw [val_main_v31_apply]
  exact congrArg₂ (· * ·) ((apply_ix2_of_val (val_main_v30 (F := Ideal) x0 x9 x10) _ r k rfl rfl).trans (v30_at x0 x9 x10 r k))
    (apply_ix2_of_val x11 _ q k rfl rfl)

/-! ### The 32 features and the 64 hidden values -/

/-- The three results laid side by side, read at an entry: the features of the row. -/
theorem v36_at (r : Fin 2097152) (q : Fin 32) :
    val_main_v36 (F := Ideal) x0 x1 x2 x3 x4 x5 x6 x7 x8 x9 x10 x11 x12 (ix2 r q) = feat (Params.mk x1 x2 x3 x4 x5 x6 x7 x8 x9 x10 x11 x12 x13 x14 x15 x16 x17 x18 x19 x20) (fun m => x0 (ix2 r m)) q := by
  unfold val_main_v36
  rw [Cert.RowOps.cat3_apply]
  simp only [feat, cat3]
  by_cases h1 : q.val < 16
  · rw [dif_pos h1, dif_pos h1]
    exact v13_at x0 x1 x2 x3 x4 r ⟨q.val, h1⟩
  · rw [dif_neg h1, dif_neg h1]
    by_cases h2 : q.val < 24
    · rw [dif_pos h2, dif_pos h2]
      exact v24_at x0 x5 x6 x7 x8 r ⟨q.val - 16, by omega⟩
    · rw [dif_neg h2, dif_neg h2]
      exact v35_at x0 x9 x10 x11 x12 r ⟨q.val - 24, by omega⟩

/-- The hidden values of the row, read at an entry. -/
theorem v41_at (r : Fin 2097152) (q : Fin 64) :
    val_main_v41 (F := Ideal) x0 x1 x2 x3 x4 x5 x6 x7 x8 x9 x10 x11 x12 x13 x14 (ix2 r q) = hid (Params.mk x1 x2 x3 x4 x5 x6 x7 x8 x9 x10 x11 x12 x13 x14 x15 x16 x17 x18 x19 x20) (fun m => x0 (ix2 r m)) q := by
  rw [val_main_v41_apply, val_main_v38_apply, val_main_v40_apply, val_main_v39_apply]
  refine congrArg₂ (· + ·) (Finset.sum_congr rfl fun k _ => ?_) (apply_ix1_of_val x14 _ q rfl)
  rw [val_main_v37_apply]
  exact congrArg₂ (· * ·) ((apply_ix2_of_val (val_main_v36 (F := Ideal) x0 x1 x2 x3 x4 x5 x6 x7 x8 x9 x10 x11 x12) _ r k rfl rfl).trans (v36_at x0 x1 x2 x3 x4 x5 x6 x7 x8 x9 x10 x11 x12 x13 x14 x15 x16 x17 x18 x19 x20 r k))
    (apply_ix2_of_val x13 _ q k rfl rfl)

/-! ### Mean, variance, and the normalised values

  These are stated over the 64 hidden values of the row as the reference holds them, without opening them up. -/

/-- The mean column, read at its entry of the row. -/
theorem v45_at (r : Fin 2097152) :
    val_main_v45 (F := Ideal) x0 x1 x2 x3 x4 x5 x6 x7 x8 x9 x10 x11 x12 x13 x14 (ix2 r (0 : Fin 1)) = mean64 (fun k => val_main_v41 (F := Ideal) x0 x1 x2 x3 x4 x5 x6 x7 x8 x9 x10 x11 x12 x13 x14 (ix2 r k)) := by
  rw [val_main_v45_apply, val_main_v43_apply, val_main_v42_apply, val_main_v44_apply, val_main_cst_apply, val_main_cst_0_apply]
  show Ideal.div (Ideal.ofBits .f32 0x00000000#32 + ∑ k : Fin 64, _) (Ideal.ofBits .f32 0x42800000#32) = _
  rw [Ideal.ofBits_zero_f32, zero_add]
  exact congrArg₂ Ideal.div (Finset.sum_congr rfl fun k _ => apply_ix2_of_val _ _ r k rfl rfl) rfl

/-- A hidden value less the mean (the copy that is squared), read at an entry. -/
theorem v47_at (r : Fin 2097152) (q : Fin 64) :
    val_main_v47 (F := Ideal) x0 x1 x2 x3 x4 x5 x6 x7 x8 x9 x10 x11 x12 x13 x14 (ix2 r q) = dev (fun k => val_main_v41 (F := Ideal) x0 x1 x2 x3 x4 x5 x6 x7 x8 x9 x10 x11 x12 x13 x14 (ix2 r k)) q := by
  rw [val_main_v47_apply, val_main_v46_apply]
  exact congrArg₂ (· - ·) rfl ((apply_ix2_of_val (val_main_v45 (F := Ideal) x0 x1 x2 x3 x4 x5 x6 x7 x8 x9 x10 x11 x12 x13 x14) _ r (0 : Fin 1) rfl rfl).trans (v45_at x0 x1 x2 x3 x4 x5 x6 x7 x8 x9 x10 x11 x12 x13 x14 r))

/-- A hidden value less the mean (the copy that is scaled), read at an entry. -/
theorem v54_at (r : Fin 2097152) (q : Fin 64) :
    val_main_v54 (F := Ideal) x0 x1 x2 x3 x4 x5 x6 x7 x8 x9 x10 x11 x12 x13 x14 (ix2 r q) = dev (fun k => val_main_v41 (F := Ideal) x0 x1 x2 x3 x4 x5 x6 x7 x8 x9 x10 x11 x12 x13 x14 (ix2 r k)) q := by
  rw [val_main_v54_apply, val_main_v53_apply]
  exact congrArg₂ (· - ·) rfl ((apply_ix2_of_val (val_main_v45 (F := Ideal) x0 x1 x2 x3 x4 x5 x6 x7 x8 x9 x10 x11 x12 x13 x14) _ r (0 : Fin 1) rfl rfl).trans (v45_at x0 x1 x2 x3 x4 x5 x6 x7 x8 x9 x10 x11 x12 x13 x14 r))

/-- The variance column, read at its entry of the row. -/
theorem v52_at (r : Fin 2097152) :
    val_main_v52 (F := Ideal) x0 x1 x2 x3 x4 x5 x6 x7 x8 x9 x10 x11 x12 x13 x14 (ix2 r (0 : Fin 1)) = mean64 (fun k => dev (fun k => val_main_v41 (F := Ideal) x0 x1 x2 x3 x4 x5 x6 x7 x8 x9 x10 x11 x12 x13 x14 (ix2 r k)) k * dev (fun k => val_main_v41 (F := Ideal) x0 x1 x2 x3 x4 x5 x6 x7 x8 x9 x10 x11 x12 x13 x14 (ix2 r k)) k) := by
  rw [val_main_v52_apply, val_main_v50_apply, val_main_v49_apply, val_main_v51_apply, val_main_cst_1_apply, val_main_cst_2_apply]
  show Ideal.div (Ideal.ofBits .f32 0x00000000#32 + ∑ k : Fin 64, _) (Ideal.ofBits .f32 0x42800000#32) = _
  rw [Ideal.ofBits_zero_f32, zero_add]
  refine congrArg₂ Ideal.div (Finset.sum_congr rfl fun k _ => ?_) rfl
  refine (apply_ix2_of_val (val_main_v48 (F := Ideal) x0 x1 x2 x3 x4 x5 x6 x7 x8 x9 x10 x11 x12 x13 x14) _ r k rfl rfl).trans ?_
  rw [val_main_v48_apply, v47_at]
  rfl

/-- The normalised, scaled, shifted value through tanh, read at an entry. -/
theorem v66_at (r : Fin 2097152) (q : Fin 64) :
    val_main_v66 (F := Ideal) x0 x1 x2 x3 x4 x5 x6 x7 x8 x9 x10 x11 x12 x13 x14 x15 x16 (ix2 r q) = normed x15 x16 (fun k => val_main_v41 (F := Ideal) x0 x1 x2 x3 x4 x5 x6 x7 x8 x9 x10 x11 x12 x13 x14 (ix2 r k)) q := by
  have e58 : val_main_v58 (F := Ideal) x0 x1 x2 x3 x4 x5 x6 x7 x8 x9 x10 x11 x12 x13 x14 (ix2 r q)
      = Ideal.rsqrt (mean64 (fun k => dev (fun k => val_main_v41 (F := Ideal) x0 x1 x2 x3 x4 x5 x6 x7 x8 x9 x10 x11 x12 x13 x14 (ix2 r k)) k * dev (fun k => val_main_v41 (F := Ideal) x0 x1 x2 x3 x4 x5 x6 x7 x8 x9 x10 x11 x12 x13 x14 (ix2 r k)) k) + Ideal.ofBits .f32 0x3727C5AC#32) := by
    rw [val_main_v58_apply]
    refine (apply_ix2_of_val (val_main_v57 (F := Ideal) x0 x1 x2 x3 x4 x5 x6 x7 x8 x9 x10 x11 x12 x13 x14) _ r (0 : Fin 1) rfl rfl).trans ?_
    rw [val_main_v57_apply, val_main_v56_apply, v52_at, val_main_v55_apply, val_main_cst_3_apply]
    rfl
  have e61 : val_main_v61 (F := Ideal) x15 (ix2 r q) = x15 (ix1 q) := by
    rw [val_main_v61_apply, val_main_v60_apply]
    exact apply_ix1_of_val x15 _ q rfl
  have e64 : val_main_v64 (F := Ideal) x16 (ix2 r q) = x16 (ix1 q) := by
    rw [val_main_v64_apply, val_main_v63_apply]
    exact apply_ix1_of_val x16 _ q rfl
  rw [val_main_v66_apply, val_main_v65_apply, val_main_v62_apply, val_main_v59_apply, v54_at, e58, e61, e64]
  rfl

/-! ### The last perceptron and the sum

  Stated over the 64 normalised values of the row as the reference holds them. -/

/-- The last perceptron's first affine map, read at an entry. -/
theorem v71_at (r : Fin 2097152) (k : Fin 32) :
    val_main_v71 (F := Ideal) x0 x1 x2 x3 x4 x5 x6 x7 x8 x9 x10 x11 x12 x13 x14 x15 x16 x17 x18 (ix2 r k) = affine x17 x18 (fun q => val_main_v66 (F := Ideal) x0 x1 x2 x3 x4 x5 x6 x7 x8 x9 x10 x11 x12 x13 x14 x15 x16 (ix2 r q)) k := by
  rw [val_main_v71_apply, val_main_v68_apply, val_main_v70_apply, val_main_v69_apply]
  refine congrArg₂ (· + ·) (Finset.sum_congr rfl fun m _ => ?_) (apply_ix1_of_val x18 _ k rfl)
  rw [val_main_v67_apply]
  exact congrArg₂ (· * ·) (apply_ix2_of_val (val_main_v66 (F := Ideal) x0 x1 x2 x3 x4 x5 x6 x7 x8 x9 x10 x11 x12 x13 x14 x15 x16) _ r m rfl rfl) (apply_ix2_of_val x17 _ k m rfl rfl)

/-- Its rectified first layer, read at an entry. -/
theorem v72_at (r : Fin 2097152) (k : Fin 32) :
    val_main_v72 (F := Ideal) x0 x1 x2 x3 x4 x5 x6 x7 x8 x9 x10 x11 x12 x13 x14 x15 x16 x17 x18 (ix2 r k) = relu (affine x17 x18 (fun q => val_main_v66 (F := Ideal) x0 x1 x2 x3 x4 x5 x6 x7 x8 x9 x10 x11 x12 x13 x14 x15 x16 (ix2 r q))) k := by
  rw [val_main_v72_apply, val_main_call3_v0_apply, val_main_call3_cst_apply, v71_at]
  rfl

/-- Its result, read at an entry. -/
theorem v77_at (r : Fin 2097152) (q : Fin 64) :
    val_main_v77 (F := Ideal) x0 x1 x2 x3 x4 x5 x6 x7 x8 x9 x10 x11 x12 x13 x14 x15 x16 x17 x18 x19 x20 (ix2 r q) = mlp x17 x18 x19 x20 (fun q => val_main_v66 (F := Ideal) x0 x1 x2 x3 x4 x5 x6 x7 x8 x9 x10 x11 x12 x13 x14 x15 x16 (ix2 r q)) q := by
  rw [val_main_v77_apply, val_main_v74_apply, val_main_v76_apply, val_main_v75_apply]
  refine congrArg₂ (· + ·) (Finset.sum_congr rfl fun k _ => ?_) (apply_ix1_of_val x20 _ q rfl)
  rw [val_main_v73_apply]
  exact congrArg₂ (· * ·) ((apply_ix2_of_val (val_main_v72 (F := Ideal) x0 x1 x2 x3 x4 x5 x6 x7 x8 x9 x10 x11 x12 x13 x14 x15 x16 x17 x18) _ r k rfl rfl).trans (v72_at x0 x1 x2 x3 x4 x5 x6 x7 x8 x9 x10 x11 x12 x13 x14 x15 x16 x17 x18 r k))
    (apply_ix2_of_val x19 _ q k rfl rfl)

/-- The reference's result, read at an entry, over the normalised values of the row. -/
theorem v78_at (r : Fin 2097152) (q : Fin 64) :
    val_main_v78 (F := Ideal) x0 x1 x2 x3 x4 x5 x6 x7 x8 x9 x10 x11 x12 x13 x14 x15 x16 x17 x18 x19 x20 (ix2 r q) = resid x17 x18 x19 x20 (fun q => val_main_v66 (F := Ideal) x0 x1 x2 x3 x4 x5 x6 x7 x8 x9 x10 x11 x12 x13 x14 x15 x16 (ix2 r q)) q := by
  rw [val_main_v78_apply, v77_at]
  rfl

/-- The normalised values of the row as the reference holds them are `base` of the row. -/
theorem v66_row (r : Fin 2097152) :
    (fun q => val_main_v66 (F := Ideal) x0 x1 x2 x3 x4 x5 x6 x7 x8 x9 x10 x11 x12 x13 x14 x15 x16 (ix2 r q)) = base (Params.mk x1 x2 x3 x4 x5 x6 x7 x8 x9 x10 x11 x12 x13 x14 x15 x16 x17 x18 x19 x20) (fun m => x0 (ix2 r m)) :=
  funext fun q => (v66_at x0 x1 x2 x3 x4 x5 x6 x7 x8 x9 x10 x11 x12 x13 x14 x15 x16 r q).trans
    (congrArg (fun h => normed x15 x16 h q) (funext fun k => v41_at x0 x1 x2 x3 x4 x5 x6 x7 x8 x9 x10 x11 x12 x13 x14 x15 x16 x17 x18 x19 x20 r k))

end Layers

/-- Entry `(r, j)` of the reference's result is `rowOut` of row `r` of the input array. -/
theorem ref_apply (x0 : Vec Ideal S2097152x8 .f32) (x1 : Vec Ideal S16x3 .f32) (x2 : Vec Ideal S16 .f32) (x3 : Vec Ideal S16x16 .f32) (x4 : Vec Ideal S16 .f32) (x5 : Vec Ideal S8x2 .f32) (x6 : Vec Ideal S8 .f32) (x7 : Vec Ideal S8x8 .f32) (x8 : Vec Ideal S8 .f32) (x9 : Vec Ideal S8x3 .f32) (x10 : Vec Ideal S8 .f32) (x11 : Vec Ideal S8x8 .f32) (x12 : Vec Ideal S8 .f32) (x13 : Vec Ideal S64x32 .f32) (x14 : Vec Ideal S64 .f32) (x15 : Vec Ideal S64 .f32) (x16 : Vec Ideal S64 .f32) (x17 : Vec Ideal S32x64 .f32) (x18 : Vec Ideal S32 .f32) (x19 : Vec Ideal S64x32 .f32) (x20 : Vec Ideal S64 .f32) (r : Fin 2097152) (j : Fin 64) :
    Cert.ReferenceIdeal.Read.val_main_v78 (F := Ideal) x0 x1 x2 x3 x4 x5 x6 x7 x8 x9 x10 x11 x12 x13 x14 x15 x16 x17 x18 x19 x20 (ix2 r j)
      = rowOut (Params.mk x1 x2 x3 x4 x5 x6 x7 x8 x9 x10 x11 x12 x13 x14 x15 x16 x17 x18 x19 x20) (fun k => x0 (ix2 r k)) j := by
  rw [v78_at, v66_row x0 x1 x2 x3 x4 x5 x6 x7 x8 x9 x10 x11 x12 x13 x14 x15 x16 x17 x18 x19 x20 r]
  rfl

/-- So the reference's result array is `G`. -/
theorem ref_eq (x0 : Vec Ideal S2097152x8 .f32) (x1 : Vec Ideal S16x3 .f32) (x2 : Vec Ideal S16 .f32) (x3 : Vec Ideal S16x16 .f32) (x4 : Vec Ideal S16 .f32) (x5 : Vec Ideal S8x2 .f32) (x6 : Vec Ideal S8 .f32) (x7 : Vec Ideal S8x8 .f32) (x8 : Vec Ideal S8 .f32) (x9 : Vec Ideal S8x3 .f32) (x10 : Vec Ideal S8 .f32) (x11 : Vec Ideal S8x8 .f32) (x12 : Vec Ideal S8 .f32) (x13 : Vec Ideal S64x32 .f32) (x14 : Vec Ideal S64 .f32) (x15 : Vec Ideal S64 .f32) (x16 : Vec Ideal S64 .f32) (x17 : Vec Ideal S32x64 .f32) (x18 : Vec Ideal S32 .f32) (x19 : Vec Ideal S64x32 .f32) (x20 : Vec Ideal S64 .f32) :
    Cert.ReferenceIdeal.Read.val_main_v78 (F := Ideal) x0 x1 x2 x3 x4 x5 x6 x7 x8 x9 x10 x11 x12 x13 x14 x15 x16 x17 x18 x19 x20 = G (Params.mk x1 x2 x3 x4 x5 x6 x7 x8 x9 x10 x11 x12 x13 x14 x15 x16 x17 x18 x19 x20) x0 := by
  funext i
  obtain ⟨r, j, rfl⟩ : ∃ (r : Fin 2097152) (j : Fin 64), i = ix2 r j := ⟨i 0, i 1, eq_ix2 i⟩
  exact ref_apply x0 x1 x2 x3 x4 x5 x6 x7 x8 x9 x10 x11 x12 x13 x14 x15 x16 x17 x18 x19 x20 r j

end Cert.ReferenceIdeal.RowValue

end
-- ==== Proof.lean ====
/-
  The certificate of the row network: the kernel and the reference compute, row by row, one and the same function
  of the extended reals.

  The kernel walks the 2,097,152 rows in 512 blocks of 4,096; each weight array is staged whole at every block.  What a
  block's run writes back is, entry by entry, `rowOut` of the matching input row (KernelRow), and the blocks tile the
  output array, so the array after the run is `G` of the arguments (KernelArray).  The reference is a straight line of
  host operations whose result, read at an entry, is the same `rowOut` of the same row (ReferenceRow).  Both sides apply the
  same operations in the same order — products as finite sums over the contraction coordinate, the row sums as finite
  sums, the same words for zero, sixty-four and ε, changes of float format the identity — so no law of arithmetic is
  needed to join them, and the precondition is not used by the value claim.  The ideal pass's ledger is empty.
-/
import proofs.«161402_j47193100648813_1_alg».proof.Defs
import proofs.«161402_j47193100648813_1_alg».proof.Proof.Gen.Kernel
import proofs.«161402_j47193100648813_1_alg».proof.Proof.Gen.Kernel.Frame
import proofs.«161402_j47193100648813_1_alg».proof.Proof.Gen.KernelIdeal
import proofs.«161402_j47193100648813_1_alg».proof.Proof.Gen.KernelIdeal.Frame
import proofs.«161402_j47193100648813_1_alg».proof.Proof.Gen.KernelIdeal.Value
import proofs.«161402_j47193100648813_1_alg».proof.Proof.Gen.ReferenceIdeal
import proofs.«161402_j47193100648813_1_alg».proof.Proof.Gen.ReferenceIdeal.Run
import proofs.«161402_j47193100648813_1_alg».proof.Proof.Gen.ReferenceIdeal.Read
import proofs.«161402_j47193100648813_1_alg».proof.Proof.Gen.Pre_finite_inputs
import proofs.«161402_j47193100648813_1_alg».proof.Proof.KernelArray
import proofs.«161402_j47193100648813_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the result array at `G` of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.RowNet.G (Cert.KernelIdeal.ArrayValue.params m c)
      (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v78_eq, Cert.ReferenceIdeal.RowValue.ref_eq, h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
